-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S1x10000x128 .f32) (main_arg1 : FVec F S10000x10000 .f32) (main_arg2 : FVec F S128x128 .f32) (main_arg3 : FVec F S128 .f32) (main_arg4 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_v13 main_v16
-- ==== Kernel.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S10000x128 : Shape := ⟨2, ![10000, 128]⟩
abbrev S1x128 : Shape := ⟨2, ![1, 128]⟩
abbrev S1x1 : Shape := ⟨2, ![1, 1]⟩
abbrev S640x10000 : Shape := ⟨2, ![640, 10000]⟩
abbrev S640x128 : Shape := ⟨2, ![640, 128]⟩

abbrev nBuf : Space → Nat
  | .hbm => 10
  | .vmem => 9
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S10000x128, .f32⟩
  | .hbm, ⟨6, _⟩ => ⟨S1x128, .f32⟩
  | .hbm, ⟨7, _⟩ => ⟨S1x1, .f32⟩
  | .hbm, ⟨8, _⟩ => ⟨S10000x128, .f32⟩
  | .hbm, ⟨9, _⟩ => ⟨S1x10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S1x1, .f32⟩
  | .local _ .vmem, ⟨4, _⟩ => ⟨S640x10000, .f32⟩
  | .local _ .vmem, ⟨5, _⟩ => ⟨S640x10000, .f32⟩
  | .local _ .vmem, ⟨6, _⟩ => ⟨S640x128, .f32⟩
  | .local _ .vmem, ⟨7, _⟩ => ⟨S640x128, .f32⟩
  | .local _ .vmem, ⟨8, _⟩ => ⟨S10000x128, .bf16⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S640x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x10000x128_S10000x128 : S1x10000x128.ShapeCasts S10000x128
  shapeCasts_S128_S1x128 : S128.ShapeCasts S1x128
  shapeCasts_S1_S1x1 : S1.ShapeCasts S1x1
  shapeCasts_S10000x128_S1x10000x128 : S10000x128.ShapeCasts S1x10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S640x10000_S640x10000_0_0 : ∀ a, (![0, 0] : Fin 2 → Nat) a + S640x10000.size a ≤ S640x10000.size a
  h_S640x10000 : 0 < S640x10000.numel
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S640x128_S640x128_0_0 : ∀ a, (![0, 0] : Fin 2 → Nat) a + S640x128.size a ≤ S640x128.size a
  h_S640x128 : 0 < S640x128.numel
  dot_S10000x128_S128x128_S10000x128_1_1_0_0_n_n_wf : DotDims.WF S10000x128 S128x128 S10000x128 [1] [1] [0] [0] [] []
  dot_S640x10000_S10000x128_S640x128_1_0_0_1_n_n_wf : DotDims.WF S640x10000 S10000x128 S640x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S640x10000.size a < S10000x10000.size a
  hwx0_4 : ∀ i : grid0.Coords, EltTy.bits .f32 = 32 ∨ (Rect.unit (s := S10000x10000) (fun a => cc0_transform_4 i a * S640x10000.size a) (fun a => (Pipeline.Clip.of (cc0_transform_4 i a) (S640x10000.size a) (S10000x10000.size a)).extent (S640x10000.size a)) fun a => Pipeline.Clip.inb (Pipeline.Clip.ok_of (hstart0_4 i a))).WholeWords (EltTy.packing .f32)
  hwxs0_4 : ∀ i : grid0.Coords, EltTy.bits .f32 = 32 ∨ (Rect.unit (s := S640x10000) (fun _ => 0) (fun a => (Pipeline.Clip.of (cc0_transform_4 i a) (S640x10000.size a) (S10000x10000.size a)).extent (S640x10000.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S640x128.size a < S10000x128.size a
  hwx0_5 : ∀ i : grid0.Coords, EltTy.bits .f32 = 32 ∨ (Rect.unit (s := S10000x128) (fun a => cc0_transform_5 i a * S640x128.size a) (fun a => (Pipeline.Clip.of (cc0_transform_5 i a) (S640x128.size a) (S10000x128.size a)).extent (S640x128.size a)) fun a => Pipeline.Clip.inb (Pipeline.Clip.ok_of (hstart0_5 i a))).WholeWords (EltTy.packing .f32)
  hwxs0_5 : ∀ i : grid0.Coords, EltTy.bits .f32 = 32 ∨ (Rect.unit (s := S640x128) (fun _ => 0) (fun a => (Pipeline.Clip.of (cc0_transform_5 i a) (S640x128.size a) (S10000x128.size a)).extent (S640x128.size a)) fun a => (Nat.zero_add _).trans_le (Pipeline.Clip.extent_le (Pipeline.Clip.ok_of (hstart0_5 i a)))).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S640x10000_S10000x128_S640x128_1_0_0_1_n_n : DotDims S640x10000 S10000x128 S640x128 where
  lhsContracting := [1]
  rhsContracting := [0]
  lhsNonContracting := [0]
  rhsNonContracting := [1]
  lhsBatch := []
  rhsBatch := []
  wf := dot_S640x10000_S10000x128_S640x128_1_0_0_1_n_n_wf

abbrev win0_0 : Pipeline.Window sig grid0 :=
  Pipeline.Window.ofSpec (Memref.whole main_call0_v0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_arg1) S640x10000.size cc0_transform_4 reads0_4 false false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_call0_v3) S640x128.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x10000x128 : Shape := ⟨3, ![1, 10000, 128]⟩
abbrev S10000x10000 : Shape := ⟨2, ![10000, 10000]⟩
abbrev S128x128 : Shape := ⟨2, ![128, 128]⟩
abbrev S128 : Shape := ⟨1, ![128]⟩
abbrev S1 : Shape := ⟨1, ![1]⟩
abbrev S1x1x128 : Shape := ⟨3, ![1, 1, 128]⟩
abbrev S10000x128 : Shape := ⟨2, ![10000, 128]⟩
abbrev S_ : Shape := ⟨0, ![]⟩
abbrev S1x1x1 : Shape := ⟨3, ![1, 1, 1]⟩

abbrev nBuf : Space → Nat
  | .hbm => 19
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1, .f32⟩
  | .hbm, ⟨5, _⟩ => ⟨S1x10000x128, .f32⟩
  | .hbm, ⟨6, _⟩ => ⟨S1x1x128, .f32⟩
  | .hbm, ⟨7, _⟩ => ⟨S1x10000x128, .f32⟩
  | .hbm, ⟨8, _⟩ => ⟨S1x10000x128, .f32⟩
  | .hbm, ⟨9, _⟩ => ⟨S10000x128, .f32⟩
  | .hbm, ⟨10, _⟩ => ⟨S10000x128, .f32⟩
  | .hbm, ⟨11, _⟩ => ⟨S1x10000x128, .f32⟩
  | .hbm, ⟨12, _⟩ => ⟨S_, .f32⟩
  | .hbm, ⟨13, _⟩ => ⟨S1x10000x128, .f32⟩
  | .hbm, ⟨14, _⟩ => ⟨S1x10000x128, .i1⟩
  | .hbm, ⟨15, _⟩ => ⟨S1x1x1, .f32⟩
  | .hbm, ⟨16, _⟩ => ⟨S1x10000x128, .f32⟩
  | .hbm, ⟨17, _⟩ => ⟨S1x10000x128, .f32⟩
  | .hbm, ⟨18, _⟩ => ⟨S1x10000x128, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S1x10000x128_0_1_2 : S1x1x128.BroadcastsInDim S1x10000x128 (![0, 1, 2] : Fin 3 → Fin S1x10000x128.rank)
  shapeCasts_S1x10000x128_S10000x128 : S1x10000x128.ShapeCasts S10000x128
  bcast_S10000x128_S1x10000x128_1_2 : S10000x128.BroadcastsInDim S1x10000x128 (![1, 2] : Fin 2 → Fin S1x10000x128.rank)
  bcast_S_S1x10000x128 : S_.BroadcastsInDim S1x10000x128 (![] : Fin 0 → Fin S1x10000x128.rank)
  bcast_S1_S1x1x1_2 : S1.BroadcastsInDim S1x1x1 (![2] : Fin 1 → Fin S1x1x1.rank)
  bcast_S1x1x1_S1x10000x128_0_1_2 : S1x1x1.BroadcastsInDim S1x10000x128 (![0, 1, 2] : Fin 3 → Fin S1x10000x128.rank)
  dot_S1x10000x128_S128x128_S1x10000x128_2_1_01_0_n_n_wf : DotDims.WF S1x10000x128 S128x128 S1x10000x128 [2] [1] [0, 1] [0] [] []
  dot_S10000x10000_S10000x128_S10000x128_1_0_0_1_n_n_wf : DotDims.WF S10000x10000 S10000x128 S10000x128 [1] [0] [0] [1] [] []

variable [Facts₀]

def dot_S1x10000x128_S128x128_S1x10000x128_2_1_01_0_n_n : DotDims S1x10000x128 S128x128 S1x10000x128 where
  lhsContracting := [2]
  rhsContracting := [1]
  lhsNonContracting := [0, 1]
  rhsNonContracting := [0]
  lhsBatch := []
  rhsBatch := []
  wf := dot_S1x10000x128_S128x128_S1x10000x128_2_1_01_0_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyRunK.lean ====
/-
  The kernel body at one grid point, as a triple over the contents of the buffers it touches.

  The body reads the five input staging buffers and the carried scratch, and writes the scratch (at the first
  point only) and the output staging buffer. At the first point the scratch is overwritten by the linear layer
  of the first three inputs (`k0_pay1`); at every point the output buffer receives `k0_pay2` of the adjacency
  block, the scratch as it then stands, and the slope. The input buffers are left as found.
-/
import proofs.«120041_g38628935860365_cont_8to1_b_742_12_alg».proof.Proof.Gen.Kernel.Frame
import proofs.«120041_g38628935860365_cont_8to1_b_742_12_alg».proof.Proof.Gen.Kernel.Skeleton
import Idealize.ShloMosaic.Lib.Pipeline.Kit
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The kernel has no loop variants. -/
abbrev 𝒱₀ : Variants := Variants.none

namespace Body

/-! ## Whole-buffer accesses

Every access of the body is through the unit rectangle at zero offsets of the buffer's own sizes: a load through it
reads what the view reads, one unmasked store through it leaves its payload. -/

section Whole

variable {sig' : RefSig} {κ : Kind} {sp : Space} {s : Shape} {e : EltTy} {Val : EltTy → Type}

/-- A load through the whole-shape rectangle at zero offsets reads what the view reads of the buffer. -/
theorem readAt_unit_zero_of_read (v : View sig' κ sp s e) {off : Fin s.rank → Nat} (hz : off = fun _ => 0)
    (inb : ∀ a, off a + s.size a ≤ s.size a) {f : v.ty.Contents Val} {X : s.Idx → Val e} (hf : v.read Val f = X) :
    v.readAt Val (Rect.unit off s.size inb).toLoadRect f = X := by
  rw [View.readAt_eq_ld, hf, View.ld_unit_zero hz]

/-- After one unmasked store through the whole-shape rectangle at zero offsets the view reads the payload. -/
theorem read_writes_unit_zero [∀ e, Nonempty (Val e)] (v : View sig' κ sp s e) {off : Fin s.rank → Nat}
    (hz : off = fun _ => 0) (inb : ∀ a, off a + s.size a ≤ s.size a) (f : v.ty.Contents Val) (w : s.Idx → Val e) :
    v.read Val (v.writes Val f [(⟨Rect.unit off s.size inb, w⟩ : View.Piece Val s e)]) = w := by
  rw [View.read_writes_eq_canon v f _ (fun y => ⟨_, List.mem_singleton_self _, View.mem_set_unit_zero hz inb y⟩),
    View.canon_unit_zero hz]

end Whole

/-- The two zero offsets as the constant function. -/
theorem zero2 : (![0, 0] : Fin 2 → Nat) = fun _ => 0 := funext fun a => by fin_cases a <;> rfl

/-! ## The branch -/

/-- The condition of the body's conditional, over the grid coordinates: the coordinate is zero. -/
abbrev cond0 (i : grid0.Coords) : Prop :=
  (Scalar.cmpi .ne (Scalar.extui (Scalar.cmpi .eq (BitVec.ofNat 32 (i 0).val) 0#32)) 0#32) = 1#1

/-- It holds at the first point only: decided over the sixteen points. -/
theorem hcond0 : ∀ t : Fin cfg0.N, cond0 (grid0.coords t) ↔ t.val = 0 :=
  (by decide +kernel : ∀ t : Fin grid0.N, cond0 (grid0.coords t) ↔ t.val = 0)

/-- The body where the branch is taken, on any whole memrefs: the scratch is overwritten by the linear layer of the
    first three buffers, and the output buffer receives `k0_pay2` of the fifth buffer, that new scratch and the fourth. -/
theorem body_first (c : Dev nD) (i : grid0.Coords) (hc : cond0 i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S640x10000 .f32) (harg5 : arg5.IsWhole) (arg6 : Memref sig .tc .vmem S640x128 .f32) (harg6 : arg6.IsWhole)
    (arg7 : Memref sig .tc .vmem S10000x128 .bf16) (harg7 : arg7.IsWhole)
    (X0 : S10000x128.Idx → Elt F .f32) (X1 : S128x128.Idx → Elt F .f32) (X2 : S1x128.Idx → Elt F .f32)
    (X3 : S1x1.Idx → Elt F .f32) (X4 : S640x10000.Idx → Elt F .f32) (X5 : S640x128.Idx → Elt F .f32)
    (S : S10000x128.Idx → Elt F .bf16) (K : PUnit → sProp 𝕄) :
    iprop((owns (c : Thread nD τ) arg1 fullShare X0 ∗ owns (c : Thread nD τ) arg2 fullShare X1
            ∗ owns (c : Thread nD τ) arg3 fullShare X2 ∗ owns (c : Thread nD τ) arg4 fullShare X3
            ∗ owns (c : Thread nD τ) arg5 fullShare X4 ∗ owns (c : Thread nD τ) arg6 fullShare X5
            ∗ owns (c : Thread nD τ) arg7 fullShare S)
          ∗ (iprop(owns (c : Thread nD τ) arg1 fullShare X0 ∗ owns (c : Thread nD τ) arg2 fullShare X1
                ∗ owns (c : Thread nD τ) arg3 fullShare X2 ∗ owns (c : Thread nD τ) arg4 fullShare X3
                ∗ owns (c : Thread nD τ) arg5 fullShare X4
                ∗ owns (c : Thread nD τ) arg6 fullShare (k0_pay2 X4 (k0_pay1 X0 X1 X2) X3)
                ∗ owns (c : Thread nD τ) arg7 fullShare (k0_pay1 X0 X1 X2)) -∗ K ⟨⟩))
      ⊢ wp frame (wpE (defs₀ (F := F)) 𝒱₀ c none) Set.univ
          (cc0__body i arg1 harg1 arg2 harg2 arg3 harg3 arg4 harg4 arg5 harg5 arg6 harg6 arg7 harg7) K := by
  simp only [cc0__body_eq_skeleton]; unfold cc0__body_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec (disch := first | exact hc)
  sl_step
  iapply Hk
  sl_unfold_run_names
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; iexact H6
    ipureintro
    rw [read_writes_unit_zero _ zero2, View.readCov_unit_zero _ zero2, readAt_unit_zero_of_read _ zero2 _ hf1,
      readAt_unit_zero_of_read _ zero2 _ hf2, readAt_unit_zero_of_read _ zero2 _ hf3,
      readAt_unit_zero_of_read _ zero2 _ hf4, readAt_unit_zero_of_read _ zero2 _ hf5]
  · iexists _; isplitr; swap; iexact H7
    ipureintro
    rw [read_writes_unit_zero _ zero2, readAt_unit_zero_of_read _ zero2 _ hf1,
      readAt_unit_zero_of_read _ zero2 _ hf2, readAt_unit_zero_of_read _ zero2 _ hf3]

/-- The body where the branch is not taken, on any whole memrefs: the scratch is kept, and the output buffer receives
    `k0_pay2` of the fifth buffer, the scratch and the fourth. -/
theorem body_later (c : Dev nD) (i : grid0.Coords) (hc : ¬ cond0 i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S640x10000 .f32) (harg5 : arg5.IsWhole) (arg6 : Memref sig .tc .vmem S640x128 .f32) (harg6 : arg6.IsWhole)
    (arg7 : Memref sig .tc .vmem S10000x128 .bf16) (harg7 : arg7.IsWhole)
    (X0 : S10000x128.Idx → Elt F .f32) (X1 : S128x128.Idx → Elt F .f32) (X2 : S1x128.Idx → Elt F .f32)
    (X3 : S1x1.Idx → Elt F .f32) (X4 : S640x10000.Idx → Elt F .f32) (X5 : S640x128.Idx → Elt F .f32)
    (S : S10000x128.Idx → Elt F .bf16) (K : PUnit → sProp 𝕄) :
    iprop((owns (c : Thread nD τ) arg1 fullShare X0 ∗ owns (c : Thread nD τ) arg2 fullShare X1
            ∗ owns (c : Thread nD τ) arg3 fullShare X2 ∗ owns (c : Thread nD τ) arg4 fullShare X3
            ∗ owns (c : Thread nD τ) arg5 fullShare X4 ∗ owns (c : Thread nD τ) arg6 fullShare X5
            ∗ owns (c : Thread nD τ) arg7 fullShare S)
          ∗ (iprop(owns (c : Thread nD τ) arg1 fullShare X0 ∗ owns (c : Thread nD τ) arg2 fullShare X1
                ∗ owns (c : Thread nD τ) arg3 fullShare X2 ∗ owns (c : Thread nD τ) arg4 fullShare X3
                ∗ owns (c : Thread nD τ) arg5 fullShare X4
                ∗ owns (c : Thread nD τ) arg6 fullShare (k0_pay2 X4 S X3)
                ∗ owns (c : Thread nD τ) arg7 fullShare S) -∗ K ⟨⟩))
      ⊢ wp frame (wpE (defs₀ (F := F)) 𝒱₀ c none) Set.univ
          (cc0__body i arg1 harg1 arg2 harg2 arg3 harg3 arg4 harg4 arg5 harg5 arg6 harg6 arg7 harg7) K := by
  simp only [cc0__body_eq_skeleton]; unfold cc0__body_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec (disch := first | exact hc)
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; iexact H6
    ipureintro
    rw [read_writes_unit_zero _ zero2, readAt_unit_zero_of_read _ zero2 _ hf4,
      readAt_unit_zero_of_read _ zero2 _ hf5, readAt_unit_zero_of_read _ zero2 _ hf7]
  · iexists f7; isplitr; · ipureintro; exact hf7
    iexact H7

end Body

/-- The scratch after the body at point `t`: the linear layer's result at the first point, unchanged later. -/
def scratchNext (t : Fin cfg0.N) (X0 : S10000x128.Idx → Elt F .f32) (X1 : S128x128.Idx → Elt F .f32)
    (X2 : S1x128.Idx → Elt F .f32) (S : S10000x128.Idx → Elt F .bf16) : S10000x128.Idx → Elt F .bf16 :=
  if t.val = 0 then k0_pay1 X0 X1 X2 else S

/-- The body at point `t` on buffers holding `X0 … X5` and scratch `S`: inputs kept, the scratch at
    `scratchNext`, the output buffer at `k0_pay2` of the adjacency block, the new scratch and the slope. -/
theorem body_run (c : Dev nD) (t : Fin cfg0.N)
    (X0 : S10000x128.Idx → Elt F .f32) (X1 : S128x128.Idx → Elt F .f32) (X2 : S1x128.Idx → Elt F .f32)
    (X3 : S1x1.Idx → Elt F .f32) (X4 : S640x10000.Idx → Elt F .f32) (X5 : S640x128.Idx → Elt F .f32)
    (S : S10000x128.Idx → Elt F .bf16) (K : PUnit → sProp 𝕄) :
    iprop((owns (c : Thread nD τ) (st0_0 t) fullShare X0 ∗ owns (c : Thread nD τ) (st0_1 t) fullShare X1
            ∗ owns (c : Thread nD τ) (st0_2 t) fullShare X2 ∗ owns (c : Thread nD τ) (st0_3 t) fullShare X3
            ∗ owns (c : Thread nD τ) (st0_4 t) fullShare X4 ∗ owns (c : Thread nD τ) (st0_5 t) fullShare X5
            ∗ owns (c : Thread nD τ) (Memref.whole cc0_scratch0) fullShare S)
          ∗ (iprop(owns (c : Thread nD τ) (st0_0 t) fullShare X0 ∗ owns (c : Thread nD τ) (st0_1 t) fullShare X1
                ∗ owns (c : Thread nD τ) (st0_2 t) fullShare X2 ∗ owns (c : Thread nD τ) (st0_3 t) fullShare X3
                ∗ owns (c : Thread nD τ) (st0_4 t) fullShare X4
                ∗ owns (c : Thread nD τ) (st0_5 t) fullShare (k0_pay2 X4 (scratchNext t X0 X1 X2 S) X3)
                ∗ owns (c : Thread nD τ) (Memref.whole cc0_scratch0) fullShare (scratchNext t X0 X1 X2 S)) -∗ K ⟨⟩))
      ⊢ wp frame (wpE (defs₀ (F := F)) 𝒱₀ c none) Set.univ (bodyAt0 (F := F) t) K := by
  by_cases ht : t.val = 0
  · -- the first point: the branch is taken
    rw [show scratchNext t X0 X1 X2 S = k0_pay1 X0 X1 X2 by unfold scratchNext; exact if_pos ht]
    exact Body.body_first c (grid0.coords t) ((Body.hcond0 t).2 ht) _ _ _ _ _ _ _ _ _ _ _ _ _ _ X0 X1 X2 X3 X4 X5 S K
  · -- a later point: the branch is skipped
    rw [show scratchNext t X0 X1 X2 S = S by unfold scratchNext; exact if_neg ht]
    exact Body.body_later c (grid0.coords t) (fun h => ht ((Body.hcond0 t).1 h)) _ _ _ _ _ _ _ _ _ _ _ _ _ _ X0 X1 X2 X3 X4 X5 S K

end Cert.Kernel.Hand

end
-- ==== Proof.BitsFrame.lean ====
/-
  The frame of the kernel as printed, at the word-level instance.

  Nothing is said of what the body computes: at this instance the matrix unit's result is opaque in its whole
  operand, and at the last point the adjacency buffer's rows past the array's end hold words nothing names. The proof
  data are therefore relational: the four resident input buffers are left as found, the adjacency buffer and the
  output buffer at anything, the scratch at anything between points. The body never branches on, nor addresses by,
  a word it loaded, so it runs from any such contents. The arguments are windows' arrays the pipeline only reads,
  or buffers neither the region nor the trailing reshape writes.
-/
import proofs.«120041_g38628935860365_cont_8to1_b_742_12_alg».proof.Defs
import proofs.«120041_g38628935860365_cont_8to1_b_742_12_alg».proof.Proof.BodyRunK
import proofs.«120041_g38628935860365_cont_8to1_b_742_12_alg».proof.Proof.Gen.Kernel.Frame
import proofs.«120041_g38628935860365_cont_8to1_b_742_12_alg».proof.Proof.Gen.Pre_finite_inputs
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- The relational proof data on device `c`. -/
def rdat (c : Dev nD) : RDat τ (Elt Bits) Unit ℕ (UR sig nD τ) ℕ cfg0 c where
  A w := V m c (Pipeline.arrRef spec0 w)
  after w _ Y X := match w with
    | ⟨0, _⟩ => X = Y
    | ⟨1, _⟩ => X = Y
    | ⟨2, _⟩ => X = Y
    | ⟨3, _⟩ => X = Y
    | ⟨4, _⟩ => True
    | ⟨5, _⟩ => True
  Φ _ := Pipeline.ΦA spec0 c
  q _ := fullShare
  owed _ := 0

/-- The scratch buffer held whole at contents `f` is the scratch memref owned at `f`. -/
theorem scratch_owns_of (c : Dev nD) (f : Buf (Elt Bits) ((c : Thread nD τ).loc cc0_scratch0)) :
    (((c : Thread nD τ).loc cc0_scratch0) ↦{fullShare} f : sProp 𝕄)
      ⊢ owns (c : Thread nD τ) (Memref.whole cc0_scratch0) fullShare f := by
  rw [owns_whole_eq]
  iintro H
  iexists f
  isplitr
  · ipureintro; rfl
  iexact H

/-- The scratch memref owned at any contents is the scratch buffer held whole at some contents. -/
theorem scratch_held_of (c : Dev nD) (X : S10000x128.Idx → Elt Bits .bf16) :
    (owns (c : Thread nD τ) (Memref.whole cc0_scratch0) fullShare X : sProp 𝕄)
      ⊢ iprop(∃ f : Buf (Elt Bits) ((c : Thread nD τ).loc cc0_scratch0), ((c : Thread nD τ).loc cc0_scratch0) ↦{fullShare} f) := by
  rw [owns_whole_eq]
  iintro ⟨%g, %hg, Hs⟩
  iexists g
  iexact Hs

/-- The body runs from any contents of its buffers and leaves the resident inputs as found. -/
theorem body_obligation (c : Dev nD) : (rdat m c).BodyObligation (defs₀ (F := Bits)) 𝒱₀ () Set.univ := by
  intro t Y _
  rw [bigSep_W0, bigSep_W0]
  -- nothing is owed at either position, and the invariant is the same at both
  rw [show (rdat m c).owesAt () t.succ = (rdat m c).owesAt () t.castSucc from rfl]
  generalize (rdat m c).owesAt () t.castSucc = O
  dsimp only [rdat]
  unfold Pipeline.ΦA
  rw [scopedRest0_eq]
  iintro ⟨⟨⟨%f, Hs⟩, Hr⟩, Ho, H0, H1, H2, H3, H4, H5⟩
  iapply (body_run (F := Bits) c t (Y 0) (Y 1) (Y 2) (Y 3) (Y 4) (Y 5) f _)
  isplitl [H0 H1 H2 H3 H4 H5 Hs]
  · isplitl [H0]; · iexact H0
    isplitl [H1]; · iexact H1
    isplitl [H2]; · iexact H2
    isplitl [H3]; · iexact H3
    isplitl [H4]; · iexact H4
    isplitl [H5]; · iexact H5
    iapply (scratch_owns_of c f)
    iexact Hs
  iintro ⟨H0, H1, H2, H3, H4, H5, Hs⟩
  -- the invariant again: the scratch at whatever the body left there
  isplitl [Hs Hr]
  · isplitl [Hs]
    · iapply (scratch_held_of c _)
      iexact Hs
    · iexact Hr
  isplitl [Ho]; · iexact Ho
  -- the four resident inputs as found, the adjacency and output buffers at what they hold
  isplitl [H0]
  · iexists (Y 0); isplitr; · ipureintro; rfl
    iexact H0
  isplitl [H1]
  · iexists (Y 1); isplitr; · ipureintro; rfl
    iexact H1
  isplitl [H2]
  · iexists (Y 2); isplitr; · ipureintro; rfl
    iexact H2
  isplitl [H3]
  · iexists (Y 3); isplitr; · ipureintro; rfl
    iexact H3
  isplitl [H4]
  · iexists (Y 4); isplitr; · ipureintro; trivial
    iexact H4
  · iexists _; isplitr; · ipureintro; trivial
    iexact H5

/-- The trailing reshape writes @main's result buffer only. -/
theorem tail_writes : ∀ ops ∈ ([hostOps1] : List (List (HloOp τ sig (Elt Bits)))), ∀ op ∈ ops, ∀ b : Ref sig .tc,
    Proc.devRef .tc b ∈ op.writes → b ∈ ({main_v0} : Finset (Ref sig .tc)) := by
  intro ops hops op hop b hb
  simp only [List.mem_cons, List.mem_nil_iff, or_false] at hops
  subst hops
  simp only [hostOps1, List.mem_cons, List.mem_nil_iff, or_false] at hop
  subst hop
  simp only [StableHlo.reshape_writes, Finset.mem_singleton] at hb
  exact Finset.mem_singleton.mpr (Proc.devRef_injective _ hb)

/-- The run: every array at contents it may hold after the write-backs, every buffer the region and the reshape
    leave alone at its contents when the region was entered. -/
theorem run_main : θ_run (defs (F := Bits)) (onTc (τ := τ) (main (F := Bits))) (s₀ m ρ)
    (Pipeline.RDat.FramePostR cfg0 (rdat m) {main_v0} (fun c b => V0 m c (Proc.devRef .tc b))) :=
  Pipeline.RDat.θ_run_frame_around_T cfgs 0 launch0 defs₀ 𝒱₀ (rdat m) {main_v0} m ρ main
    (hbody := body_obligation m)
    (hshare := fun c w => by unfold RDat.share; split <;> rfl) (howed := fun _ _ => rfl)
    (V₀ := V0 m) (opss := [hostOps1]) (hsub := sfx_sub) (hfresh := sfx_fresh) (hkeep := sfx_keeps) (hT := tail_writes)
    (hmain := hmain m 𝒱₀) (hA := fun _ _ => rfl) (hΦ := fun _ _ => rfl)

/-- The frame of the kernel as printed. -/
theorem frame_p : Cert.frame_Kernel := by
  intro m ρ _
  refine (θ_run defs _ _).mono (fun r h c => ?_) (run_main m ρ)
  -- a buffer that is no window's array and not the result buffer is as when the region was entered
  have hrest : ∀ b : Ref sig .tc, b.isScoped = false → (∀ w, (spec0 w).arr.view.ref ≠ b) → b ≠ main_v0 →
      r.2.mem ((c.tc : Thread nD τ).loc b) = V m c b := fun b hs ha hne =>
    (h c).2 b (Finset.mem_sdiff.mpr ⟨Pipeline.mem_restRefs_of b hs ha, fun hm => hne (Finset.mem_singleton.mp hm)⟩)
  exact ⟨(hrest main_arg0 (by decide) (by decide) (by decide)).trans (V_main_arg0 m c),
    (h.arr_in c 4 rfl).trans (V_main_arg1 m c),
    (h.arr_in c 1 rfl).trans (V_main_arg2 m c),
    (hrest main_arg3 (by decide) (by decide) (by decide)).trans (V_main_arg3 m c),
    (hrest main_arg4 (by decide) (by decide) (by decide)).trans (V_main_arg4 m c)⟩

end Cert.Kernel.Hand

end
-- ==== Proof.IdealData.lean ====
/-
  The proof data of the idealized kernel's one pipeline.

  The arrays enter at their contents when the region starts. After the body at point `t` the four resident input
  buffers hold their blocks; the adjacency buffer holds its block of `adj` on the rows inside the array (the rows past
  the array's end, at the last point, are stated as zero and nothing reads them); the output buffer holds the
  rectifier of that block times the scratch. The scratch holds, from the second point on, the linear layer of the
  first three inputs — the invariant carried between points; before the first point it holds anything.
-/
import proofs.«120041_g38628935860365_cont_8to1_b_742_12_alg».proof.Proof.Gen.KernelIdeal.Frame
import proofs.«120041_g38628935860365_cont_8to1_b_742_12_alg».proof.Proof.Gen.KernelIdeal.Skeleton
import Idealize.ShloMosaic.Lib.Pipeline.Kit
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The scratch once the first point has run: the linear layer of the three resident inputs. -/
def hval (c : Dev nD) : S10000x128.Idx → Elt Ideal .bf16 :=
  k0_pay1 (F := Ideal) (iblk m c 0 t0_0) (iblk m c 1 t0_0) (iblk m c 2 t0_0)

/-- The adjacency block of point `t`, filled out with zeros past the array's end. -/
def adjFilled (c : Dev nD) (t : Fin cfg0.N) : S640x10000.Idx → Elt Ideal .f32 :=
  (cfg0.win 4).fill (grid0.coords t) (fun _ => (0 : EReal)) (iblk m c 4 t)

/-- What the output buffer holds after the body at point `t`. -/
def outBlk (c : Dev nD) (t : Fin cfg0.N) : S640x128.Idx → Elt Ideal .f32 :=
  k0_pay2 (F := Ideal) (adjFilled m c t) (hval m c) (iblk m c 3 t)

/-- The invariant before point `t`: the scratch at anything before the first point, at `hval` afterwards; the
    generator register at some state. -/
def scratchInv (c : Dev nD) (t : Fin (cfg0.N + 1)) : sProp 𝕄 :=
  if t.val = 0 then Pipeline.ΦA spec0 c
  else iprop(owns (c : Thread nD τ) (Memref.whole cc0_scratch0) fullShare (hval m c) ∗ ∃ r, prngReg c r)

/-- The proof data on device `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => adjFilled m c t
    | ⟨5, _⟩ => outBlk m c t
  Φ t := scratchInv m c t
  q _ := fullShare
  owed _ := 0

end Cert.KernelIdeal.Hand

end
-- ==== Proof.BodyRun.lean ====
/-
  The kernel body at one grid point, as a triple over the contents of the buffers it touches.

  The body reads the five input staging buffers and the carried scratch, and writes the scratch (at the first
  point only) and the output staging buffer. At the first point the scratch is overwritten by the linear layer
  of the first three inputs (`k0_pay1`); at every point the output buffer receives `k0_pay2` of the adjacency
  block, the scratch as it then stands, and the slope. The input buffers are left as found.
-/
import proofs.«120041_g38628935860365_cont_8to1_b_742_12_alg».proof.Proof.Gen.KernelIdeal.Frame
import proofs.«120041_g38628935860365_cont_8to1_b_742_12_alg».proof.Proof.Gen.KernelIdeal.Skeleton
import Idealize.ShloMosaic.Lib.Pipeline.Kit
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

/-- The kernel has no loop variants. -/
abbrev 𝒱₀ : Variants := Variants.none

namespace Body

/-! ## Whole-buffer accesses

Every access of the body is through the unit rectangle at zero offsets of the buffer's own sizes: a load through it
reads what the view reads, one unmasked store through it leaves its payload. -/

section Whole

variable {sig' : RefSig} {κ : Kind} {sp : Space} {s : Shape} {e : EltTy} {Val : EltTy → Type}

/-- A load through the whole-shape rectangle at zero offsets reads what the view reads of the buffer. -/
theorem readAt_unit_zero_of_read (v : View sig' κ sp s e) {off : Fin s.rank → Nat} (hz : off = fun _ => 0)
    (inb : ∀ a, off a + s.size a ≤ s.size a) {f : v.ty.Contents Val} {X : s.Idx → Val e} (hf : v.read Val f = X) :
    v.readAt Val (Rect.unit off s.size inb).toLoadRect f = X := by
  rw [View.readAt_eq_ld, hf, View.ld_unit_zero hz]

/-- After one unmasked store through the whole-shape rectangle at zero offsets the view reads the payload. -/
theorem read_writes_unit_zero [∀ e, Nonempty (Val e)] (v : View sig' κ sp s e) {off : Fin s.rank → Nat}
    (hz : off = fun _ => 0) (inb : ∀ a, off a + s.size a ≤ s.size a) (f : v.ty.Contents Val) (w : s.Idx → Val e) :
    v.read Val (v.writes Val f [(⟨Rect.unit off s.size inb, w⟩ : View.Piece Val s e)]) = w := by
  rw [View.read_writes_eq_canon v f _ (fun y => ⟨_, List.mem_singleton_self _, View.mem_set_unit_zero hz inb y⟩),
    View.canon_unit_zero hz]

end Whole

/-- The two zero offsets as the constant function. -/
theorem zero2 : (![0, 0] : Fin 2 → Nat) = fun _ => 0 := funext fun a => by fin_cases a <;> rfl

/-! ## The branch -/

/-- The condition of the body's conditional, over the grid coordinates: the coordinate is zero. -/
abbrev cond0 (i : grid0.Coords) : Prop :=
  (Scalar.cmpi .ne (Scalar.extui (Scalar.cmpi .eq (BitVec.ofNat 32 (i 0).val) 0#32)) 0#32) = 1#1

/-- It holds at the first point only: decided over the sixteen points. -/
theorem hcond0 : ∀ t : Fin cfg0.N, cond0 (grid0.coords t) ↔ t.val = 0 :=
  (by decide +kernel : ∀ t : Fin grid0.N, cond0 (grid0.coords t) ↔ t.val = 0)

/-- The body where the branch is taken, on any whole memrefs: the scratch is overwritten by the linear layer of the
    first three buffers, and the output buffer receives `k0_pay2` of the fifth buffer, that new scratch and the fourth. -/
theorem body_first (c : Dev nD) (i : grid0.Coords) (hc : cond0 i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S640x10000 .f32) (harg5 : arg5.IsWhole) (arg6 : Memref sig .tc .vmem S640x128 .f32) (harg6 : arg6.IsWhole)
    (arg7 : Memref sig .tc .vmem S10000x128 .bf16) (harg7 : arg7.IsWhole)
    (X0 : S10000x128.Idx → Elt F .f32) (X1 : S128x128.Idx → Elt F .f32) (X2 : S1x128.Idx → Elt F .f32)
    (X3 : S1x1.Idx → Elt F .f32) (X4 : S640x10000.Idx → Elt F .f32) (X5 : S640x128.Idx → Elt F .f32)
    (S : S10000x128.Idx → Elt F .bf16) (K : PUnit → sProp 𝕄) :
    iprop((owns (c : Thread nD τ) arg1 fullShare X0 ∗ owns (c : Thread nD τ) arg2 fullShare X1
            ∗ owns (c : Thread nD τ) arg3 fullShare X2 ∗ owns (c : Thread nD τ) arg4 fullShare X3
            ∗ owns (c : Thread nD τ) arg5 fullShare X4 ∗ owns (c : Thread nD τ) arg6 fullShare X5
            ∗ owns (c : Thread nD τ) arg7 fullShare S)
          ∗ (iprop(owns (c : Thread nD τ) arg1 fullShare X0 ∗ owns (c : Thread nD τ) arg2 fullShare X1
                ∗ owns (c : Thread nD τ) arg3 fullShare X2 ∗ owns (c : Thread nD τ) arg4 fullShare X3
                ∗ owns (c : Thread nD τ) arg5 fullShare X4
                ∗ owns (c : Thread nD τ) arg6 fullShare (k0_pay2 X4 (k0_pay1 X0 X1 X2) X3)
                ∗ owns (c : Thread nD τ) arg7 fullShare (k0_pay1 X0 X1 X2)) -∗ K ⟨⟩))
      ⊢ wp frame (wpE (defs₀ (F := F)) 𝒱₀ c none) Set.univ
          (cc0__body i arg1 harg1 arg2 harg2 arg3 harg3 arg4 harg4 arg5 harg5 arg6 harg6 arg7 harg7) K := by
  simp only [cc0__body_eq_skeleton]; unfold cc0__body_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec (disch := first | exact hc)
  sl_step
  iapply Hk
  sl_unfold_run_names
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; iexact H6
    ipureintro
    rw [read_writes_unit_zero _ zero2, View.readCov_unit_zero _ zero2, readAt_unit_zero_of_read _ zero2 _ hf1,
      readAt_unit_zero_of_read _ zero2 _ hf2, readAt_unit_zero_of_read _ zero2 _ hf3,
      readAt_unit_zero_of_read _ zero2 _ hf4, readAt_unit_zero_of_read _ zero2 _ hf5]
  · iexists _; isplitr; swap; iexact H7
    ipureintro
    rw [read_writes_unit_zero _ zero2, readAt_unit_zero_of_read _ zero2 _ hf1,
      readAt_unit_zero_of_read _ zero2 _ hf2, readAt_unit_zero_of_read _ zero2 _ hf3]

/-- The body where the branch is not taken, on any whole memrefs: the scratch is kept, and the output buffer receives
    `k0_pay2` of the fifth buffer, the scratch and the fourth. -/
theorem body_later (c : Dev nD) (i : grid0.Coords) (hc : ¬ cond0 i)
    (arg1 : Memref sig .tc .vmem S10000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x1 .f32) (harg4 : arg4.IsWhole)
    (arg5 : Memref sig .tc .vmem S640x10000 .f32) (harg5 : arg5.IsWhole) (arg6 : Memref sig .tc .vmem S640x128 .f32) (harg6 : arg6.IsWhole)
    (arg7 : Memref sig .tc .vmem S10000x128 .bf16) (harg7 : arg7.IsWhole)
    (X0 : S10000x128.Idx → Elt F .f32) (X1 : S128x128.Idx → Elt F .f32) (X2 : S1x128.Idx → Elt F .f32)
    (X3 : S1x1.Idx → Elt F .f32) (X4 : S640x10000.Idx → Elt F .f32) (X5 : S640x128.Idx → Elt F .f32)
    (S : S10000x128.Idx → Elt F .bf16) (K : PUnit → sProp 𝕄) :
    iprop((owns (c : Thread nD τ) arg1 fullShare X0 ∗ owns (c : Thread nD τ) arg2 fullShare X1
            ∗ owns (c : Thread nD τ) arg3 fullShare X2 ∗ owns (c : Thread nD τ) arg4 fullShare X3
            ∗ owns (c : Thread nD τ) arg5 fullShare X4 ∗ owns (c : Thread nD τ) arg6 fullShare X5
            ∗ owns (c : Thread nD τ) arg7 fullShare S)
          ∗ (iprop(owns (c : Thread nD τ) arg1 fullShare X0 ∗ owns (c : Thread nD τ) arg2 fullShare X1
                ∗ owns (c : Thread nD τ) arg3 fullShare X2 ∗ owns (c : Thread nD τ) arg4 fullShare X3
                ∗ owns (c : Thread nD τ) arg5 fullShare X4
                ∗ owns (c : Thread nD τ) arg6 fullShare (k0_pay2 X4 S X3)
                ∗ owns (c : Thread nD τ) arg7 fullShare S) -∗ K ⟨⟩))
      ⊢ wp frame (wpE (defs₀ (F := F)) 𝒱₀ c none) Set.univ
          (cc0__body i arg1 harg1 arg2 harg2 arg3 harg3 arg4 harg4 arg5 harg5 arg6 harg6 arg7 harg7) K := by
  simp only [cc0__body_eq_skeleton]; unfold cc0__body_skel
  unfold owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, Hk⟩
  sl_exec (disch := first | exact hc)
  sl_step
  iapply Hk
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  isplitl [H4]
  · iexists f4; isplitr; · ipureintro; exact hf4
    iexact H4
  isplitl [H5]
  · iexists f5; isplitr; · ipureintro; exact hf5
    iexact H5
  isplitl [H6]
  · iexists _; isplitr; swap; iexact H6
    ipureintro
    rw [read_writes_unit_zero _ zero2, readAt_unit_zero_of_read _ zero2 _ hf4,
      readAt_unit_zero_of_read _ zero2 _ hf5, readAt_unit_zero_of_read _ zero2 _ hf7]
  · iexists f7; isplitr; · ipureintro; exact hf7
    iexact H7

end Body

/-- The scratch after the body at point `t`: the linear layer's result at the first point, unchanged later. -/
def scratchNext (t : Fin cfg0.N) (X0 : S10000x128.Idx → Elt F .f32) (X1 : S128x128.Idx → Elt F .f32)
    (X2 : S1x128.Idx → Elt F .f32) (S : S10000x128.Idx → Elt F .bf16) : S10000x128.Idx → Elt F .bf16 :=
  if t.val = 0 then k0_pay1 X0 X1 X2 else S

/-- The body at point `t` on buffers holding `X0 … X5` and scratch `S`: inputs kept, the scratch at
    `scratchNext`, the output buffer at `k0_pay2` of the adjacency block, the new scratch and the slope. -/
theorem body_run (c : Dev nD) (t : Fin cfg0.N)
    (X0 : S10000x128.Idx → Elt F .f32) (X1 : S128x128.Idx → Elt F .f32) (X2 : S1x128.Idx → Elt F .f32)
    (X3 : S1x1.Idx → Elt F .f32) (X4 : S640x10000.Idx → Elt F .f32) (X5 : S640x128.Idx → Elt F .f32)
    (S : S10000x128.Idx → Elt F .bf16) (K : PUnit → sProp 𝕄) :
    iprop((owns (c : Thread nD τ) (st0_0 t) fullShare X0 ∗ owns (c : Thread nD τ) (st0_1 t) fullShare X1
            ∗ owns (c : Thread nD τ) (st0_2 t) fullShare X2 ∗ owns (c : Thread nD τ) (st0_3 t) fullShare X3
            ∗ owns (c : Thread nD τ) (st0_4 t) fullShare X4 ∗ owns (c : Thread nD τ) (st0_5 t) fullShare X5
            ∗ owns (c : Thread nD τ) (Memref.whole cc0_scratch0) fullShare S)
          ∗ (iprop(owns (c : Thread nD τ) (st0_0 t) fullShare X0 ∗ owns (c : Thread nD τ) (st0_1 t) fullShare X1
                ∗ owns (c : Thread nD τ) (st0_2 t) fullShare X2 ∗ owns (c : Thread nD τ) (st0_3 t) fullShare X3
                ∗ owns (c : Thread nD τ) (st0_4 t) fullShare X4
                ∗ owns (c : Thread nD τ) (st0_5 t) fullShare (k0_pay2 X4 (scratchNext t X0 X1 X2 S) X3)
                ∗ owns (c : Thread nD τ) (Memref.whole cc0_scratch0) fullShare (scratchNext t X0 X1 X2 S)) -∗ K ⟨⟩))
      ⊢ wp frame (wpE (defs₀ (F := F)) 𝒱₀ c none) Set.univ (bodyAt0 (F := F) t) K := by
  by_cases ht : t.val = 0
  · -- the first point: the branch is taken
    rw [show scratchNext t X0 X1 X2 S = k0_pay1 X0 X1 X2 by unfold scratchNext; exact if_pos ht]
    exact Body.body_first c (grid0.coords t) ((Body.hcond0 t).2 ht) _ _ _ _ _ _ _ _ _ _ _ _ _ _ X0 X1 X2 X3 X4 X5 S K
  · -- a later point: the branch is skipped
    rw [show scratchNext t X0 X1 X2 S = S by unfold scratchNext; exact if_neg ht]
    exact Body.body_later c (grid0.coords t) (fun h => ht ((Body.hcond0 t).1 h)) _ _ _ _ _ _ _ _ _ _ _ _ _ _ X0 X1 X2 X3 X4 X5 S K

end Cert.KernelIdeal.Hand

end
-- ==== Proof.Spec.lean ====
/-
  The function both programs compute, over the extended reals.

  Inputs: `x : [1, 10000, 128]`, `adj : [10000, 10000]`, `W : [128, 128]`, `b : [128]`, `a : [1]`.
  The linear layer is `lin n j = (∑ f, x[0, n, f] · W[j, f]) + b[j]`; the aggregated feature is
  `agg i j = ∑ k, adj[i, k] · lin k j`; the result at `[0, i, j]` is the parametric rectifier of `agg i j`
  with slope `a[0]`: the value itself where it compares `≥ 0`, else the slope times it.
-/
import Idealize.ShloMosaic.Lib.ValueIdx
import Idealize.ShloMosaic.PureOps.Ideal.Laws

noncomputable section

namespace Cert.Spec

open Idealize.ShloMosaic Idealize.ShloMosaic.ValueIdx

/-- The parametric rectifier on the extended reals, spelt with the operations both programs print: the ordered
    comparison against the zero word, and the selection between the value and its multiple by the slope. -/
def prelu (a s : EReal) : EReal :=
  Scalar.select (FloatOps.cmpf (F := Ideal) (φ := .f32) .oge s (FloatOps.ofBits (F := Ideal) .f32 0x00000000#32)) s
    (FloatOps.mulf (F := Ideal) (φ := .f32) a s)

/-- The linear layer at node `n` and feature `j`. -/
def lin (x : (⟨3, ![1, 10000, 128]⟩ : Shape).Idx → EReal) (W : (⟨2, ![128, 128]⟩ : Shape).Idx → EReal)
    (b : (⟨1, ![128]⟩ : Shape).Idx → EReal) (n : Fin 10000) (j : Fin 128) : EReal :=
  (∑ f : Fin 128, x (ix3 (0 : Fin 1) n f) * W (ix2 j f)) + b (ix1 j)

/-- The aggregation of the linear layer over the adjacency row `i`. -/
def agg (x : (⟨3, ![1, 10000, 128]⟩ : Shape).Idx → EReal) (adj : (⟨2, ![10000, 10000]⟩ : Shape).Idx → EReal)
    (W : (⟨2, ![128, 128]⟩ : Shape).Idx → EReal) (b : (⟨1, ![128]⟩ : Shape).Idx → EReal) (i : Fin 10000) (j : Fin 128) : EReal :=
  ∑ k : Fin 10000, adj (ix2 i k) * lin x W b k j

/-- The whole result, index by index. -/
def out (x : (⟨3, ![1, 10000, 128]⟩ : Shape).Idx → EReal) (adj : (⟨2, ![10000, 10000]⟩ : Shape).Idx → EReal)
    (W : (⟨2, ![128, 128]⟩ : Shape).Idx → EReal) (b : (⟨1, ![128]⟩ : Shape).Idx → EReal)
    (a : (⟨1, ![1]⟩ : Shape).Idx → EReal) : (⟨3, ![1, 10000, 128]⟩ : Shape).Idx → EReal :=
  fun i => prelu (a (ix1 (0 : Fin 1))) (agg x adj W b (i 1) (i 2))

end Cert.Spec

end
-- ==== Proof.LibDot2.lean ====
/-
  A matrix product at the ideal instance, read at an entry.

  For two rank-2 operands of shapes [M, K] and [K, N] whose dimension numbers contract the left operand's second
  axis with the right operand's first, the product into a zero accumulator is, at row `p` and column `j`, the
  plain sum over `a : Fin K` of `l (p, a) * r (a, j)` on the extended reals. The dimension numbers enter only
  through four coordinate facts (which coordinate of each operand is the output's and which is the contracted
  one); a caller proves those four for its own record and gets the sum.
-/
import Idealize.ShloMosaic.Lib.ValueIdx
import Idealize.ShloMosaic.PureOps.Ideal.Laws

noncomputable section

namespace Cert.Lib.Dot2

open Idealize.ShloMosaic Idealize.ShloMosaic.ValueIdx

/-- The contraction sum of a rank-2 by rank-2 product, re-indexed from the record's one-axis contraction index to
    `Fin K`: the left operand is read along row `p`, the right along column `j`. -/
theorem contraction_ix2 {M K N : Nat} (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : (⟨2, ![M, K]⟩ : Shape).Idx → EReal) (r : (⟨2, ![K, N]⟩ : Shape).Idx → EReal) (p : Fin M) (j : Fin N) :
    ∑ k : D.contr.Idx, l (D.lhsIdx (ix2 p j) k) * r (D.rhsIdx (ix2 p j) k) = ∑ a : Fin K, l (ix2 p a) * r (ix2 a j) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 a j := funext fun d => Fin.ext (by
    match d with
    | ⟨0, _⟩ => exact (hr0 _ _).trans hk
    | ⟨1, _⟩ => exact hr1 _ _)
  rw [el, er]

/-- A kernel's matrix product into the zero accumulator, at the ideal instance, read at `(p, j)`. -/
theorem matmul_zero_ix2 {M K N : Nat} {φ₁ φ₂ : FTy} (D : DotDims ⟨2, ![M, K]⟩ ⟨2, ![K, N]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (l : FVec Ideal ⟨2, ![M, K]⟩ φ₁) (r : FVec Ideal ⟨2, ![K, N]⟩ φ₂) (p : Fin M) (j : Fin N) :
    matmul D prec l r (constant (F := Ideal) ⟨2, ![M, N]⟩ .f32 0x00000000#32) (ix2 p j)
      = ∑ a : Fin K, l (ix2 p a) * r (ix2 a j) := by
  show FloatOps.matmul D prec l r (constant (F := Ideal) ⟨2, ![M, N]⟩ .f32 0x00000000#32) (ix2 p j) = _
  rw [Ideal.matmul_constant_zero_apply]
  exact contraction_ix2 D hr hs hl0 hl1 hr0 hr1 l r p j

end Cert.Lib.Dot2

end
-- ==== Proof.PayloadValue.lean ====
/-
  The two payloads of the kernel body at the ideal instance, read at an index.

  `k0_pay1`: the linear layer of the first three loads — a product contracting the second axis of both operands,
  plus the bias row broadcast down the rows; the change of float format is the identity.
  `k0_pay2`: the rectifier of the product of the adjacency block with the scratch, with the slope read from the
  one-by-one buffer. Row `p` of the result reads row `p` of the adjacency block only.
-/
import proofs.«120041_g38628935860365_cont_8to1_b_742_12_alg».proof.Proof.Gen.KernelIdeal.Skeleton
import proofs.«120041_g38628935860365_cont_8to1_b_742_12_alg».proof.Proof.Spec
import proofs.«120041_g38628935860365_cont_8to1_b_742_12_alg».proof.Proof.LibDot2
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.ValueIdx

/-! ## A product contracting the second axis of both operands

For operands of shapes [M, K] and [N, K] whose dimension numbers contract axis 1 of each, the entry (p, j) of the
product is the sum over `a : Fin K` of `l (p, a) * r (j, a)`: the right operand is read along its row `j`. -/

/-- The contraction sum re-indexed from the record's one-axis contraction index to `Fin K`. -/
theorem contraction_ix2_t {M K N : Nat} (D : DotDims ⟨2, ![M, K]⟩ ⟨2, ![N, K]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : (⟨2, ![M, K]⟩ : Shape).Idx → EReal) (r : (⟨2, ![N, K]⟩ : Shape).Idx → EReal) (p : Fin M) (j : Fin N) :
    ∑ k : D.contr.Idx, l (D.lhsIdx (ix2 p j) k) * r (D.rhsIdx (ix2 p j) k) = ∑ a : Fin K, l (ix2 p a) * r (ix2 j a) := by
  rw [← Equiv.sum_comp (contrEquiv1 D K hr hs).symm]
  refine Finset.sum_congr rfl fun a _ => ?_
  have hk := contrEquiv1_symm_val D K hr hs a
  have el : D.lhsIdx (ix2 p j) ((contrEquiv1 D K hr hs).symm a) = ix2 p a := funext fun d => Fin.ext (by
    match d with
    | ⟨0, _⟩ => exact hl0 _ _
    | ⟨1, _⟩ => exact (hl1 _ _).trans hk)
  have er : D.rhsIdx (ix2 p j) ((contrEquiv1 D K hr hs).symm a) = ix2 j a := funext fun d => Fin.ext (by
    match d with
    | ⟨0, _⟩ => exact hr0 _ _
    | ⟨1, _⟩ => exact (hr1 _ _).trans hk)
  rw [el, er]

/-- Such a product into the zero accumulator, read at `(p, j)`. -/
theorem matmul_zero_ix2_t {M K N : Nat} {φ₁ φ₂ : FTy} (D : DotDims ⟨2, ![M, K]⟩ ⟨2, ![N, K]⟩ ⟨2, ![M, N]⟩)
    (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (l : FVec Ideal ⟨2, ![M, K]⟩ φ₁) (r : FVec Ideal ⟨2, ![N, K]⟩ φ₂) (p : Fin M) (j : Fin N) :
    matmul D prec l r (constant (F := Ideal) ⟨2, ![M, N]⟩ .f32 0x00000000#32) (ix2 p j)
      = ∑ a : Fin K, l (ix2 p a) * r (ix2 j a) := by
  show FloatOps.matmul D prec l r (constant (F := Ideal) ⟨2, ![M, N]⟩ .f32 0x00000000#32) (ix2 p j) = _
  rw [Ideal.matmul_constant_zero_apply]
  exact contraction_ix2_t D hr hs hl0 hl1 hr0 hr1 l r p j

/-! ## The coordinates the two dimension-number records read

For the linear layer's record (both operands contracted on axis 1) and for the aggregation's (left on axis 1, right
on axis 0): on each operand, the free axis reads the output's coordinate and the contracted axis the contraction
index's one coordinate. -/

theorem lhs_lin_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
theorem lhs_lin_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
theorem rhs_lin_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
theorem rhs_lin_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

theorem lhs_agg_0 (i : S640x128.Idx) (q : dot_S640x10000_S10000x128_S640x128_1_0_0_1_n_n.contr.Idx) :
    (dot_S640x10000_S10000x128_S640x128_1_0_0_1_n_n.lhsIdx i q 0).val = (i 0).val := by
  unfold DotDims.lhsIdx
  rw [dif_neg (show ¬(0 : Fin S640x10000.rank) ∈ dot_S640x10000_S10000x128_S640x128_1_0_0_1_n_n.lhsBatch by decide), dif_pos (show (0 : Fin S640x10000.rank) ∈ dot_S640x10000_S10000x128_S640x128_1_0_0_1_n_n.lhsNonContracting by decide)]
  rfl
theorem lhs_agg_1 (i : S640x128.Idx) (q : dot_S640x10000_S10000x128_S640x128_1_0_0_1_n_n.contr.Idx) :
    (dot_S640x10000_S10000x128_S640x128_1_0_0_1_n_n.lhsIdx i q 1).val = (q ⟨0, by decide⟩).val :=
  dot_S640x10000_S10000x128_S640x128_1_0_0_1_n_n.lhsIdx_val_of_single rfl i q
theorem rhs_agg_0 (i : S640x128.Idx) (q : dot_S640x10000_S10000x128_S640x128_1_0_0_1_n_n.contr.Idx) :
    (dot_S640x10000_S10000x128_S640x128_1_0_0_1_n_n.rhsIdx i q 0).val = (q ⟨0, by decide⟩).val :=
  dot_S640x10000_S10000x128_S640x128_1_0_0_1_n_n.rhsIdx_val_of_single rfl i q
theorem rhs_agg_1 (i : S640x128.Idx) (q : dot_S640x10000_S10000x128_S640x128_1_0_0_1_n_n.contr.Idx) :
    (dot_S640x10000_S10000x128_S640x128_1_0_0_1_n_n.rhsIdx i q 1).val = (i 1).val := by
  unfold DotDims.rhsIdx
  rw [dif_neg (show ¬(1 : Fin S10000x128.rank) ∈ dot_S640x10000_S10000x128_S640x128_1_0_0_1_n_n.rhsBatch by decide), dif_pos (show (1 : Fin S10000x128.rank) ∈ dot_S640x10000_S10000x128_S640x128_1_0_0_1_n_n.rhsNonContracting by decide)]
  rfl

/-! ## The two products read at an entry -/

/-- The linear layer's product at row `n`, column `j`: row `n` of the features against row `j` of the weights. -/
theorem lin_matmul_apply (x : FVec Ideal S10000x128 .f32) (W : FVec Ideal S128x128 .f32) (n : Fin 10000) (j : Fin 128) :
    matmul dot_S10000x128_S128x128_S10000x128_1_1_0_0_n_n none x W (constant (F := Ideal) S10000x128 .f32 0x00000000#32) (ix2 n j)
      = ∑ f : Fin 128, x (ix2 n f) * W (ix2 j f) :=
  matmul_zero_ix2_t dot_S10000x128_S128x128_S10000x128_1_1_0_0_n_n none rfl rfl lhs_lin_0 lhs_lin_1 rhs_lin_0 rhs_lin_1 x W n j

/-- The aggregation's product at row `p`, column `j`: row `p` of the block against column `j` of the scratch. -/
theorem agg_matmul_apply (A : FVec Ideal S640x10000 .bf16) (H : FVec Ideal S10000x128 .bf16) (p : Fin 640) (j : Fin 128) :
    matmul dot_S640x10000_S10000x128_S640x128_1_0_0_1_n_n none A H (constant (F := Ideal) S640x128 .f32 0x00000000#32) (ix2 p j)
      = ∑ k : Fin 10000, A (ix2 p k) * H (ix2 k j) :=
  Cert.Lib.Dot2.matmul_zero_ix2 dot_S640x10000_S10000x128_S640x128_1_0_0_1_n_n none rfl rfl lhs_agg_0 lhs_agg_1 rhs_agg_0 rhs_agg_1 A H p j

/-! ## The two payloads -/

/-- The rectifier's comparison, product by the slope and selection, read at an index. -/
theorem prelu_apply {s : Shape} (v : FVec Ideal s .f32) (c : Ideal .f32) (i : s.Idx) :
    select (cmpf .oge v (broadcast s (FloatOps.ofBits (F := Ideal) .f32 0x00000000#32))) v (mulf (broadcast s c) v) i
      = Cert.Spec.prelu c (v i) := rfl

/-- The one entry of a one-by-one array, extracted at the static position `[0, 0]`. -/
theorem extractAt_1x1 (a : S1x1.Idx → EReal) (h : ∀ d, (![0, 0] : Fin 2 → Nat) d < S1x1.size d) :
    extractAt ![0, 0] a h = a (ix2 (0 : Fin 1) (0 : Fin 1)) :=
  congrArg a (funext fun d => by
    match d with
    | ⟨0, _⟩ => rfl
    | ⟨1, _⟩ => rfl)

/-- The linear layer's payload at row `n`, column `j`. -/
theorem pay1_apply (x : S10000x128.Idx → EReal) (W : S128x128.Idx → EReal) (b : S1x128.Idx → EReal) (n : Fin 10000) (j : Fin 128) :
    k0_pay1 (F := Ideal) x W b (ix2 n j) = (∑ f : Fin 128, x (ix2 n f) * W (ix2 j f)) + b (ix2 (0 : Fin 1) j) := by
  unfold k0_pay1
  rw [shapeCast_self, shapeCast_self, shapeCast_self]
  show matmul dot_S10000x128_S128x128_S10000x128_1_1_0_0_n_n none x W (constant (F := Ideal) S10000x128 .f32 0x00000000#32) (ix2 n j)
      + broadcastTo S10000x128 b broadcasts_S1x128_S10000x128 (ix2 n j) = _
  exact congrArg₂ (· + ·) (lin_matmul_apply x W n j) (broadcastTo_1b_ab_apply b broadcasts_S1x128_S10000x128 n j)

/-- The output payload at row `p`, column `j` of the block. -/
theorem pay2_apply (A : S640x10000.Idx → EReal) (H : S10000x128.Idx → EReal) (a : S1x1.Idx → EReal) (p : Fin 640) (j : Fin 128) :
    k0_pay2 (F := Ideal) A H a (ix2 p j)
      = Cert.Spec.prelu (a (ix2 (0 : Fin 1) (0 : Fin 1))) (∑ k : Fin 10000, A (ix2 p k) * H (ix2 k j)) := by
  unfold k0_pay2
  refine (prelu_apply _ _ (ix2 p j)).trans ?_
  exact congrArg₂ Cert.Spec.prelu (extractAt_1x1 a inpos_S1x1_p0_0)
    (agg_matmul_apply (truncf .bf16 A bitsLt_bf16_f32) H p j)

/-- Row locality: two adjacency blocks that agree on row `p` give the same output row `p`. -/
theorem pay2_row (A A' : S640x10000.Idx → EReal) (H : S10000x128.Idx → EReal) (a : S1x1.Idx → EReal) (p : Fin 640)
    (h : ∀ k : Fin 10000, A (ix2 p k) = A' (ix2 p k)) (j : Fin 128) :
    k0_pay2 (F := Ideal) A H a (ix2 p j) = k0_pay2 (F := Ideal) A' H a (ix2 p j) := by
  rw [pay2_apply, pay2_apply]; exact congrArg _ (Finset.sum_congr rfl fun k _ => by rw [h k])

end Cert.KernelIdeal.Hand

end
-- ==== Proof.IdealObligation.lean ====
/-
  The idealized kernel's body obligation.

  At each point the body is handed the six staging buffers — the four resident inputs at their blocks, the adjacency
  buffer at its block on the rows inside the array and anything past them, the output buffer at anything — and the
  scratch as the invariant has it. It leaves the inputs as found, the scratch at the linear layer (written at the first
  point, kept afterwards), and the output buffer at the rectifier of the adjacency buffer times the scratch; a row of
  that result reads the same row of the adjacency buffer only, so on the rows inside the array it is the stated block
  whatever the rows past the array's end held.
-/
import proofs.«120041_g38628935860365_cont_8to1_b_742_12_alg».proof.Proof.IdealData
import proofs.«120041_g38628935860365_cont_8to1_b_742_12_alg».proof.Proof.BodyRun
import proofs.«120041_g38628935860365_cont_8to1_b_742_12_alg».proof.Proof.PayloadValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

namespace Obligation

/-! ## What the body finds in the staging buffers -/

/-- The four resident inputs' buffers hold their blocks at every point, fetched there or not. -/
theorem before_0 (c : Dev nD) (t : Fin cfg0.N) (d) : (dats m 0 c).before 0 t d = iblk m c 0 t :=
  before0_0_of m (dats m 0 c) rfl (fun t => by dsimp only [dats]) t d
theorem before_1 (c : Dev nD) (t : Fin cfg0.N) (d) : (dats m 0 c).before 1 t d = iblk m c 1 t :=
  before0_1_of m (dats m 0 c) rfl (fun t => by dsimp only [dats]) t d
theorem before_2 (c : Dev nD) (t : Fin cfg0.N) (d) : (dats m 0 c).before 2 t d = iblk m c 2 t :=
  before0_2_of m (dats m 0 c) rfl (fun t => by dsimp only [dats]) t d
theorem before_3 (c : Dev nD) (t : Fin cfg0.N) (d) : (dats m 0 c).before 3 t d = iblk m c 3 t :=
  before0_3_of m (dats m 0 c) rfl (fun t => by dsimp only [dats]) t d

/-- The adjacency buffer, fetched at every point: its block on the rows inside the array, what it held elsewhere. -/
theorem before_4 (c : Dev nD) (t : Fin cfg0.N) (d) :
    (dats m 0 c).before 4 t d = (cfg0.win 4).fill (grid0.coords t) d (iblk m c 4 t) := by
  unfold Dat.before; rw [if_pos (fetch0_4 t)]; rfl

/-! ## The output block on the rows inside the array -/

open Idealize.ShloMosaic.ValueIdx

/-- Two fills of the same block agree wherever the transfer moves the index, whatever lay underneath. -/
theorem fill_eq_of_moved {G : Pipeline.Grid} (w : Window sig G) {α : Type} (i : G.Coords) (d d' : w.block.Idx → α)
    (g : (w.xblock i).Idx → α) (j : w.block.Idx) (h : w.moved i j = true) : w.fill i d g j = w.fill i d' g j := by
  unfold Window.fill; rw [dif_pos h, dif_pos h]

/-- At every point the output block is cut to as many rows as the adjacency block, -/
theorem xrows_eq : ∀ t : Fin grid0.N, win0_5.xsize (grid0.coords t) (0 : Fin 2) = win0_4.xsize (grid0.coords t) (0 : Fin 2) := by
  decide +kernel
/-- and the adjacency block keeps all its columns. -/
theorem xcols_eq : ∀ t : Fin grid0.N, win0_4.xsize (grid0.coords t) (1 : Fin 2) = 10000 := by
  decide +kernel

/-- Every entry of a row of the adjacency buffer that the output's write-back reads is one the fetch filled. -/
theorem moved_row (t : Fin grid0.N) (p : Fin 640) (hp : p.val < win0_5.xsize (grid0.coords t) (0 : Fin 2)) (k : Fin 10000) :
    win0_4.moved (grid0.coords t) (ix2 p k) = true := by
  refine (win0_4.moved_iff (grid0.coords t) (ix2 p k)).mpr ?_
  intro a
  match a with
  | ⟨0, _⟩ => exact (xrows_eq t) ▸ hp
  | ⟨1, _⟩ => exact (xcols_eq t).symm ▸ k.isLt

/-- The output payload cut to the rows inside the array does not see what the adjacency buffer held past them. -/
theorem out_cut_agree (t : Fin grid0.N) (d d' : S640x10000.Idx → EReal)
    (g : (win0_4.xblock (grid0.coords t)).Idx → EReal) (H : S10000x128.Idx → EReal) (a : S1x1.Idx → EReal) :
    win0_5.cut (grid0.coords t) (k0_pay2 (F := Ideal) (win0_4.fill (grid0.coords t) d g) H a)
      = win0_5.cut (grid0.coords t) (k0_pay2 (F := Ideal) (win0_4.fill (grid0.coords t) d' g) H a) := by
  funext j
  show k0_pay2 (F := Ideal) (win0_4.fill (grid0.coords t) d g) H a (win0_5.xinj (grid0.coords t) j)
    = k0_pay2 (F := Ideal) (win0_4.fill (grid0.coords t) d' g) H a (win0_5.xinj (grid0.coords t) j)
  have hj : (win0_5.xinj (grid0.coords t) j : S640x128.Idx) = ix2 (win0_5.xinj (grid0.coords t) j 0) (win0_5.xinj (grid0.coords t) j 1) :=
    eq_ix2 (n0 := 640) (n1 := 128) _
  rw [hj]
  exact pay2_row _ _ H a _ (fun k => fill_eq_of_moved win0_4 _ d d' g _ (moved_row t _ (j 0).isLt k)) _

/-! ## The carried invariant -/

/-- Before point `t` the scratch holds contents from which the body's write (at the first point) or its keeping
    (afterwards) yields the linear layer. -/
theorem inv_open (c : Dev nD) (t : Fin cfg0.N) :
    scratchInv m c t.castSucc ⊢ iprop(∃ S : S10000x128.Idx → Elt Ideal .bf16,
      ⌜scratchNext t (iblk m c 0 t) (iblk m c 1 t) (iblk m c 2 t) S = hval m c⌝
        ∗ owns (c : Thread nD τ) (Memref.whole cc0_scratch0) fullShare S ∗ ∃ r, prngReg c r) := by
  unfold scratchInv
  by_cases h0 : t.val = 0
  · rw [if_pos (show t.castSucc.val = 0 from h0)]
    unfold Pipeline.ΦA; rw [scopedRest0_eq]
    iintro ⟨⟨%f, Hf⟩, Hr⟩
    iexists f
    isplitr
    · ipureintro
      unfold scratchNext; rw [if_pos h0]
      obtain rfl : t = t0_0 := Fin.ext h0
      rfl
    isplitl [Hf]
    · rw [owns_whole]; iexact Hf
    · iexact Hr
  · rw [if_neg (show ¬ t.castSucc.val = 0 from h0)]
    iintro ⟨Hs, Hr⟩
    iexists hval m c
    isplitr
    · ipureintro; unfold scratchNext; rw [if_neg h0]
    isplitl [Hs]
    · iexact Hs
    · iexact Hr

/-- After any point the invariant is the scratch at the linear layer. -/
theorem inv_close (c : Dev nD) (t : Fin cfg0.N) :
    iprop(owns (c : Thread nD τ) (Memref.whole cc0_scratch0) fullShare (hval m c) ∗ ∃ r, prngReg c r)
      ⊢ scratchInv m c t.succ := by
  unfold scratchInv
  rw [if_neg (show ¬ t.succ.val = 0 from by rw [Fin.val_succ]; omega)]

end Obligation

/-! ## The obligation -/

open Obligation in
/-- The body obligation of the proof data `dats`, every clipped window stated on the rows inside its array. -/
theorem body_obligation (c : Dev nD) : BodyObligationLoose (dats m 0 c) (defs₀ (F := Ideal)) 𝒱₀ () Set.univ := fun t => by
  rw [bigSep_W0, bigSep_W0]
  simp only
  have ha0 : (dats m 0 c).after 0 t = iblk m c 0 t := by dsimp only [dats]
  have ha1 : (dats m 0 c).after 1 t = iblk m c 1 t := by dsimp only [dats]
  have ha2 : (dats m 0 c).after 2 t = iblk m c 2 t := by dsimp only [dats]
  have ha3 : (dats m 0 c).after 3 t = iblk m c 3 t := by dsimp only [dats]
  have ha4 : (dats m 0 c).after 4 t = adjFilled m c t := by dsimp only [dats]
  have ha5 : (dats m 0 c).after 5 t = outBlk m c t := by dsimp only [dats]
  rw [ha0, ha1, ha2, ha3, ha4, ha5,
    show (dats m 0 c).Φ t.castSucc = scratchInv m c t.castSucc from rfl,
    show (dats m 0 c).Φ t.succ = scratchInv m c t.succ from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩⟩
  rw [before_0 m c t d0, before_1 m c t d1, before_2 m c t d2, before_3 m c t d3, before_4 m c t d4]
  ihave ⟨%S, %hS, Hs, Hr⟩ := (inv_open m c t) $$ HΦ
  iapply (body_run (F := Ideal) c t (iblk m c 0 t) (iblk m c 1 t) (iblk m c 2 t) (iblk m c 3 t)
    ((cfg0.win 4).fill (grid0.coords t) d4 (iblk m c 4 t)) ((dats m 0 c).before 5 t d5) S _)
  isplitl [H0 H1 H2 H3 H4 H5 Hs]
  · isplitl [H0]; · iexact H0
    isplitl [H1]; · iexact H1
    isplitl [H2]; · iexact H2
    isplitl [H3]; · iexact H3
    isplitl [H4]; · iexact H4
    isplitl [H5]; · iexact H5
    iexact Hs
  iintro ⟨H0, H1, H2, H3, H4, H5, Hs⟩
  rw [hS]
  isplitl [Hs Hr]
  · iapply (inv_close m c t)
    isplitl [Hs]; · iexact Hs
    iexact Hr
  isplitl [Ho]; · iexact Ho
  isplitl [H0]; · iexact H0
  isplitl [H1]; · iexact H1
  isplitl [H2]; · iexact H2
  isplitl [H3]; · iexact H3
  isplitl [H4]
  · -- the adjacency buffer: on the rows the fetch filled it holds the block, as the stated contents do
    iexists d4
    have h4 : (win0 4).cut (grid0.coords t) (adjFilled m c t) = iblk m c 4 t := (win0 4).cut_fill _ _ _
    rw [h4]; iexact H4
  · -- the output buffer: what the body wrote, which on the rows inside the array is the stated block
    iexists k0_pay2 (F := Ideal) ((cfg0.win 4).fill (grid0.coords t) d4 (iblk m c 4 t)) (hval m c) (iblk m c 3 t)
    have h5 : (win0 5).cut (grid0.coords t) (k0_pay2 (F := Ideal) ((cfg0.win 4).fill (grid0.coords t) d4 (iblk m c 4 t)) (hval m c) (iblk m c 3 t))
        = (win0 5).cut (grid0.coords t) (outBlk m c t) :=
      out_cut_agree t d4 (fun _ => 0) (iblk m c 4 t) (hval m c) (iblk m c 3 t)
    rw [(win0 5).fill_congr_cut (grid0.coords t) h5]; iexact H5

end Cert.KernelIdeal.Hand

end
-- ==== Proof.IdealRun.lean ====
/-
  The idealized kernel's run: @main's reshapes, the pipelined region over the sixteen row blocks, the final reshape.

  Every weakly fair execution terminates; each array of the pipeline ends at what the proof data computes, and every
  other buffer at its contents after the trailing host operation. Before the first point the scratch invariant asks
  nothing of the scratch; after the last it gives the scratch back at whatever it holds.
-/
import proofs.«120041_g38628935860365_cont_8to1_b_742_12_alg».proof.Defs
import proofs.«120041_g38628935860365_cont_8to1_b_742_12_alg».proof.Proof.IdealObligation
import proofs.«120041_g38628935860365_cont_8to1_b_742_12_alg».proof.Proof.Gen.Pre_finite_inputs
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Before the first point the invariant is the class invariant itself. -/
theorem inv_first (c : Dev nD) : Pipeline.ΦA spec0 c ⊢ ((dats m 0 c).Φ 0 : sProp 𝕄) := by
  show Pipeline.ΦA spec0 c ⊢ scratchInv m c 0
  unfold scratchInv
  rw [if_pos (Fin.val_zero _)]

/-- After the last point the scratch is forgotten. -/
theorem inv_last (c : Dev nD) : ((dats m 0 c).Φ (Fin.last cfg0.N) : sProp 𝕄) ⊢ Pipeline.ΦA spec0 c := by
  show scratchInv m c (Fin.last cfg0.N) ⊢ Pipeline.ΦA spec0 c
  unfold scratchInv
  rw [if_neg (show ¬((Fin.last cfg0.N).val = 0) from by show ¬(grid0.N = 0); rw [N_0]; decide)]
  unfold Pipeline.ΦA
  rw [scopedRest0_eq, owns_whole_eq]
  iintro ⟨⟨%f, -, Hs⟩, Hp⟩
  isplitl [Hs]
  · iexists f; iexact Hs
  · iexact Hp

/-- The run of the idealized kernel. -/
theorem run_main : θ_run (defs (F := Ideal)) (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) 0 launch0 defs₀ 𝒱₀ m ρ main
    (hbody := body_obligation m)
    (hshare := fun c => (dats m 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl)
    (hin := inv_first m) (hout := inv_last m)

/-- The frame of the idealized kernel. -/
theorem frame_pi : Cert.frame_KernelIdeal := fun m ρ _ => frame_of m ρ (dats m) (fun _ _ => rfl) (run_main m ρ)

end Cert.KernelIdeal.Hand

end
-- ==== Proof.KernelBlocks.lean ====
/-
  What each grid point writes back, as a block of one function of the arguments.

  `G2` is the region's result array: at row `i`, column `j`, the rectifier of the aggregation. Point `t` writes
  back rows `640·t …` of it, cut at the array's end: the output buffer holds the rectifier of the adjacency block
  times the scratch, the scratch is the linear layer of the resident inputs, and the rows of the adjacency buffer
  inside the array are the array's rows.
-/
import proofs.«120041_g38628935860365_cont_8to1_b_742_12_alg».proof.Proof.IdealData
import proofs.«120041_g38628935860365_cont_8to1_b_742_12_alg».proof.Proof.PayloadValue
import proofs.«120041_g38628935860365_cont_8to1_b_742_12_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Idealize.ShloMosaic.ValueIdx

variable (m : (ℓ : Loc nD τ sig) → Buf (Elt Ideal) ℓ) (ρ : Dev nD → PrngReg)

/-- The region's result array as one function of @main's arguments. -/
def G2 (c : Dev nD) : S10000x128.Idx → EReal := fun i =>
  Cert.Spec.prelu (m ((c : Thread nD τ).loc main_arg4) (ix1 (0 : Fin 1)))
    (Cert.Spec.agg (m ((c : Thread nD τ).loc main_arg0)) (m ((c : Thread nD τ).loc main_arg1))
      (m ((c : Thread nD τ).loc main_arg2)) (m ((c : Thread nD τ).loc main_arg3)) (i 0) (i 1))

namespace Blocks

/-! ## The three arrays the reshapes before the region write

The features `[1, 10000, 128]` are recast to `[10000, 128]`, the bias `[128]` to `[1, 128]` and the slope `[1]` to
`[1, 1]`; each recast array holds the argument at the same row-major position. -/

/-- The recast features when the region starts. -/
theorem entry_features (c : Dev nD) : (V m c main_call0_v0 : S10000x128.Idx → EReal)
    = shapeCast S10000x128 (m ((c : Thread nD τ).loc main_arg0)) shapeCasts_S1x10000x128_S10000x128 := by
  show StableHlo.after hostOps0 (fun b => m (c, b)) (Proc.devRef .tc main_call0_v0) = _
  after_results
  rfl

/-- The recast bias when the region starts. -/
theorem entry_bias (c : Dev nD) : (V m c main_call0_v1 : S1x128.Idx → EReal)
    = shapeCast S1x128 (m ((c : Thread nD τ).loc main_arg3)) shapeCasts_S128_S1x128 := by
  show StableHlo.after hostOps0 (fun b => m (c, b)) (Proc.devRef .tc main_call0_v1) = _
  after_results
  rfl

/-- The recast slope when the region starts. -/
theorem entry_slope (c : Dev nD) : (V m c main_call0_v2 : S1x1.Idx → EReal)
    = shapeCast S1x1 (m ((c : Thread nD τ).loc main_arg4)) shapeCasts_S1_S1x1 := by
  show StableHlo.after hostOps0 (fun b => m (c, b)) (Proc.devRef .tc main_call0_v2) = _
  after_results
  rfl

/-! ## The block indices, decided over the sixteen points -/

/-- The adjacency window and the output window move together down the rows and stay at column block `0`; they cut
    the rows alike at the array's end, and neither cuts the columns. -/
theorem moving_facts : ∀ t : Fin cfg0.N,
    win0_5.index t (0 : Fin 2) = win0_4.index t (0 : Fin 2) ∧ win0_5.index t (1 : Fin 2) = 0 ∧ win0_4.index t (1 : Fin 2) = 0
    ∧ win0_4.xsize (grid0.coords t) (0 : Fin 2) = win0_5.xsize (grid0.coords t) (0 : Fin 2)
    ∧ win0_4.xsize (grid0.coords t) (1 : Fin 2) = 10000
    ∧ win0_5.xsize (grid0.coords t) (1 : Fin 2) = 128 :=
  (by decide +kernel : ∀ t : Fin grid0.N, _)

/-- The four resident windows sit at block `(0, 0)` at every point: each block is its whole array. -/
theorem resident_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The resident blocks read at an entry

A block's coordinate in its array is the block index times the block size plus the coordinate inside the block; at
block index `0` it is the coordinate itself. -/

/-- The features' block at `(k, f)` is `x[0, k, f]`. -/
theorem features_apply (c : Dev nD) (t : Fin cfg0.N) (k : Fin 10000) (f : Fin 128) :
    iblk m c 0 t (ix2 k f) = m ((c : Thread nD τ).loc main_arg0) (ix3 (0 : Fin 1) k f) := by
  obtain ⟨e0, e1, -⟩ := resident_facts t
  have e : ((cfg0.win 0).blk t).view.emb (ix2 k f) = (ix2 k f : S10000x128.Idx) := by
    funext a; apply Fin.ext
    match a with
    | ⟨0, _⟩ => show win0_0.index t (0 : Fin 2) * 10000 + 1 * k.val = k.val; omega
    | ⟨1, _⟩ => show win0_0.index t (1 : Fin 2) * 128 + 1 * f.val = f.val; omega
  show V m c main_call0_v0 (((cfg0.win 0).blk t).view.emb (ix2 k f)) = _
  rw [e, entry_features]
  exact shapeCast_1ab_ab_apply _ _ k f

/-- The weights' block at `(q, f)` is `W[q, f]`. -/
theorem weights_apply (c : Dev nD) (t : Fin cfg0.N) (q : Fin 128) (f : Fin 128) :
    iblk m c 1 t (ix2 q f) = m ((c : Thread nD τ).loc main_arg2) (ix2 q f) := by
  obtain ⟨-, -, e0, e1, -⟩ := resident_facts t
  have e : ((cfg0.win 1).blk t).view.emb (ix2 q f) = (ix2 q f : S128x128.Idx) := by
    funext a; apply Fin.ext
    match a with
    | ⟨0, _⟩ => show win0_1.index t (0 : Fin 2) * 128 + 1 * q.val = q.val; omega
    | ⟨1, _⟩ => show win0_1.index t (1 : Fin 2) * 128 + 1 * f.val = f.val; omega
  show V m c main_arg2 (((cfg0.win 1).blk t).view.emb (ix2 q f)) = _
  rw [e, V_main_arg2]

/-- The bias row's block at `(0, q)` is `b[q]`. -/
theorem bias_apply (c : Dev nD) (t : Fin cfg0.N) (q : Fin 128) :
    iblk m c 2 t (ix2 (0 : Fin 1) q) = m ((c : Thread nD τ).loc main_arg3) (ix1 q) := by
  obtain ⟨-, -, -, -, e0, e1, -⟩ := resident_facts t
  have e : ((cfg0.win 2).blk t).view.emb (ix2 (0 : Fin 1) q) = (ix2 (0 : Fin 1) q : S1x128.Idx) := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  show V m c main_call0_v1 (((cfg0.win 2).blk t).view.emb (ix2 (0 : Fin 1) q)) = _
  rw [e, entry_bias]
  exact shapeCast_a_1a_apply _ _ (0 : Fin 1) q

/-- The slope's block at `(0, 0)` is `a[0]`. -/
theorem slope_apply (c : Dev nD) (t : Fin cfg0.N) :
    iblk m c 3 t (ix2 (0 : Fin 1) (0 : Fin 1)) = m ((c : Thread nD τ).loc main_arg4) (ix1 (0 : Fin 1)) := by
  obtain ⟨-, -, -, -, -, -, e0, e1⟩ := resident_facts t
  have e : ((cfg0.win 3).blk t).view.emb (ix2 (0 : Fin 1) (0 : Fin 1)) = (ix2 (0 : Fin 1) (0 : Fin 1) : S1x1.Idx) := by
    funext a; apply Fin.ext
    match a with
    | ⟨0, _⟩ => show win0_3.index t (0 : Fin 2) * 1 + 1 * 0 = 0; omega
    | ⟨1, _⟩ => show win0_3.index t (1 : Fin 2) * 1 + 1 * 0 = 0; omega
  show V m c main_call0_v2 (((cfg0.win 3).blk t).view.emb (ix2 (0 : Fin 1) (0 : Fin 1))) = _
  rw [e, entry_slope]
  exact shapeCast_a_1a_apply _ _ (0 : Fin 1) (0 : Fin 1)

/-! ## The scratch and the adjacency buffer read at an entry -/

/-- The scratch at `(k, q)` is the linear layer at node `k`, feature `q`:
    `(∑ f, x[0, k, f] · W[q, f]) + b[q]`. -/
theorem hval_apply (c : Dev nD) (k : Fin 10000) (q : Fin 128) :
    hval m c (ix2 k q) = Cert.Spec.lin (m ((c : Thread nD τ).loc main_arg0)) (m ((c : Thread nD τ).loc main_arg2))
      (m ((c : Thread nD τ).loc main_arg3)) k q := by
  unfold hval
  rw [pay1_apply]
  unfold Cert.Spec.lin
  rw [bias_apply]
  congr 1
  exact Finset.sum_congr rfl fun f _ => by rw [features_apply, weights_apply]

/-- Row `p` of the adjacency buffer at point `t`, when it lies inside the array (`p` below the cut row count), is
    row `r = 640 · (block index) + p` of `adj`: every column `k` is inside the array, so the entry is one the fetch
    moved, and the block's coordinates in the array are `(r, k)`. -/
theorem adj_apply (c : Dev nD) (t : Fin cfg0.N) (p : Fin 640) (k : Fin 10000) (r : Fin 10000)
    (hp : p.val < win0_4.xsize (grid0.coords t) (0 : Fin 2))
    (hr : r.val = win0_4.index t (0 : Fin 2) * 640 + p.val) :
    adjFilled m c t (ix2 p k) = m ((c : Thread nD τ).loc main_arg1) (ix2 r k) := by
  obtain ⟨-, -, e41, -, x41, -⟩ := moving_facts t
  have hmv : (cfg0.win 4).moved (grid0.coords t) (ix2 p k) = true :=
    ((cfg0.win 4).moved_iff _ _).mpr fun a => by
      match a with
      | ⟨0, _⟩ => exact hp
      | ⟨1, _⟩ => show k.val < win0_4.xsize (grid0.coords t) (1 : Fin 2); rw [x41]; exact k.isLt
  unfold adjFilled Window.fill
  rw [dif_pos hmv]
  show V m c main_arg1 (((cfg0.win 4).blk t).view.emb _) = _
  rw [V_main_arg1]
  refine congrArg _ (funext fun a => Fin.ext ?_)
  match a with
  | ⟨0, _⟩ => show win0_4.index t (0 : Fin 2) * 640 + 1 * p.val = r.val; omega
  | ⟨1, _⟩ => show win0_4.index t (1 : Fin 2) * 10000 + 1 * k.val = k.val; omega

end Blocks

/-- Point `t`'s write-back is block `t` of `G2`. -/
theorem flushed_eq (c : Dev nD) (t : Fin cfg0.N) :
    (dats m 0 c).flushed 5 t = ((cfg0.win 5).blk t).view.read (Elt Ideal) (G2 m c) := by
  show (cfg0.win 5).cut (grid0.coords t) ((dats m 0 c).after 5 t) = _
  dsimp only [dats]
  funext j
  obtain ⟨e50, e51, e41, x40, x41, x51⟩ := Blocks.moving_facts t
  -- the written-back entry `j` is entry `(p, q)` of the output buffer, `p` below the cut row count, and entry
  -- `(r, q)` of the array with `r = 640 · (block index) + p`
  have hj0 : (j 0).val < win0_5.xsize (grid0.coords t) (0 : Fin 2) := (j 0).isLt
  have hj1 : (j 1).val < win0_5.xsize (grid0.coords t) (1 : Fin 2) := (j 1).isLt
  have hp : (j 0).val < 640 := Nat.lt_of_lt_of_le hj0 (win0_5.xsize_le (grid0.coords t) (0 : Fin 2))
  have hq : (j 1).val < 128 := by rw [x51] at hj1; exact hj1
  have hr : win0_5.index t (0 : Fin 2) * 640 + 1 * (j 0).val < 10000 := (((cfg0.win 5).blk t).view.emb j (0 : Fin 2)).isLt
  have hr' : win0_4.index t (0 : Fin 2) * 640 + (j 0).val < 10000 := by omega
  have ex : (cfg0.win 5).xinj (grid0.coords t) j
      = (ix2 (⟨(j 0).val, hp⟩ : Fin 640) (⟨(j 1).val, hq⟩ : Fin 128) : S640x128.Idx) := by
    funext a
    match a with
    | ⟨0, _⟩ => rfl
    | ⟨1, _⟩ => rfl
  have ee : ((cfg0.win 5).blk t).view.emb j
      = (ix2 (⟨win0_4.index t (0 : Fin 2) * 640 + (j 0).val, hr'⟩ : Fin 10000) (⟨(j 1).val, hq⟩ : Fin 128) : S10000x128.Idx) := by
    funext a; apply Fin.ext
    match a with
    | ⟨0, _⟩ => show win0_5.index t (0 : Fin 2) * 640 + 1 * (j 0).val = win0_4.index t (0 : Fin 2) * 640 + (j 0).val; omega
    | ⟨1, _⟩ => show win0_5.index t (1 : Fin 2) * 128 + 1 * (j 1).val = (j 1).val; omega
  show outBlk m c t ((cfg0.win 5).xinj (grid0.coords t) j) = G2 m c (((cfg0.win 5).blk t).view.emb j)
  rw [ex, ee]
  -- the rectifier, slope `a[0]`, of `∑ k, adj[r, k] · lin k q`: term by term the adjacency row and the scratch column
  unfold outBlk G2
  rw [pay2_apply, Blocks.slope_apply]
  unfold Cert.Spec.agg
  refine congrArg _ (Finset.sum_congr rfl fun k _ => ?_)
  rw [Blocks.adj_apply m c t ⟨(j 0).val, hp⟩ k ⟨win0_4.index t (0 : Fin 2) * 640 + (j 0).val, hr'⟩ (by rw [x40]; exact hj0) rfl,
    Blocks.hval_apply]

end Cert.KernelIdeal.Hand

end
-- ==== Proof.KernelValue.lean ====
/-
  The idealized kernel's result as the specification's function.

  The sixteen row blocks cover the region's result array, so after the run it is `G2`; the trailing reshape to
  [1, 10000, 128] reads it at the same row and column.
-/
import proofs.«120041_g38628935860365_cont_8to1_b_742_12_alg».proof.Proof.KernelBlocks
import Idealize.ShloMosaic.Lib.Pipeline.FrameSuffix
import Idealize.ShloMosaic.Lib.Pipeline.Value
import Idealize.ShloMosaic.Lib.StableHlo.Run
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

open Idealize.ShloMosaic.ValueIdx

variable (m : (ℓ : Loc nD τ sig) → Buf (Elt Ideal) ℓ) (ρ : Dev nD → PrngReg)

/-! ## The output window's blocks cover the result array -/

/-- The output window's block index and cut sizes, decided over the grid's sixteen points: point `t` writes the
    rows from `640 · t`, all `128` columns; `640` rows, but for the last point's `400` (the array ends at row
    `10000 = 15 · 640 + 400`). -/
theorem idx_facts5 : ∀ t : Fin cfg0.N, win0_5.index t (0 : Fin 2) = t.val ∧ win0_5.index t (1 : Fin 2) = 0
    ∧ win0_5.xsize (grid0.coords t) (0 : Fin 2) = (if t.val < 15 then 640 else 400)
    ∧ win0_5.xsize (grid0.coords t) (1 : Fin 2) = 128 :=
  (by decide +kernel : ∀ t : Fin grid0.N, win0_5.index t (0 : Fin 2) = t.val ∧ win0_5.index t (1 : Fin 2) = 0
    ∧ win0_5.xsize (grid0.coords t) (0 : Fin 2) = (if t.val < 15 then 640 else 400)
    ∧ win0_5.xsize (grid0.coords t) (1 : Fin 2) = 128)

/-- An index of the array is in point `t`'s block iff each coordinate is in the block's cut range on its axis. -/
theorem mem_blk5 (t : Fin cfg0.N) (i : S10000x128.Idx) :
    i ∈ ((cfg0.win 5).blk t).view.set ↔ ∀ a : Fin 2, win0_5.index t a * S640x128.size a ≤ (i a).val
      ∧ (i a).val < win0_5.index t a * S640x128.size a + win0_5.xsize (grid0.coords t) a := by
  show i ∈ ((View.whole main_call0_v3).slice (win0_5.rect t)).set ↔ _
  rw [View.set_slice_whole, Rect.mem_set_unit]
  exact Iff.rfl

/-- Row `r` is in the block of point `r / 640`: every index of the array is in some written-back block. -/
theorem cover5 (i : S10000x128.Idx) :
    ∃ t : Fin cfg0.N, (cfg0.win 5).flush t = true ∧ i ∈ ((cfg0.win 5).blk t).view.set := by
  have hi0 : (i 0).val < 10000 := (i 0).isLt
  have hi1 : (i 1).val < 128 := (i 1).isLt
  have hN : cfg0.N = 16 := N_0
  have ht : (i 0).val / 640 < cfg0.N := by rw [hN]; omega
  refine ⟨⟨(i 0).val / 640, ht⟩, flush0_5 _, ?_⟩
  rw [mem_blk5]
  obtain ⟨e0, e1, e2, e3⟩ := idx_facts5 ⟨(i 0).val / 640, ht⟩
  intro a
  match a with
  | ⟨0, _⟩ =>
    show win0_5.index ⟨(i 0).val / 640, ht⟩ (0 : Fin 2) * 640 ≤ (i 0).val
      ∧ (i 0).val < win0_5.index ⟨(i 0).val / 640, ht⟩ (0 : Fin 2) * 640 + win0_5.xsize (grid0.coords ⟨(i 0).val / 640, ht⟩) (0 : Fin 2)
    rw [e0, e2]
    show (i 0).val / 640 * 640 ≤ (i 0).val ∧ (i 0).val < (i 0).val / 640 * 640 + (if (i 0).val / 640 < 15 then 640 else 400)
    split <;> omega
  | ⟨1, _⟩ =>
    show win0_5.index ⟨(i 0).val / 640, ht⟩ (1 : Fin 2) * 128 ≤ (i 1).val
      ∧ (i 1).val < win0_5.index ⟨(i 0).val / 640, ht⟩ (1 : Fin 2) * 128 + win0_5.xsize (grid0.coords ⟨(i 0).val / 640, ht⟩) (1 : Fin 2)
    rw [e1, e3]
    omega

/-- After the last write-back the region's result array is `G2`. -/
theorem final5 (c : Dev nD) : (dats m 0 c).arrAt 5 cfg0.N = G2 m c :=
  (dats m 0 c).arrAt_eq_of_cover 5 (G2 m c) (fun t _ => flushed_eq m c t) cover5

/-! ## The trailing reshape -/

/-- @main's result after the trailing reshape is the specification. -/
theorem result_eq (c : Dev nD) :
    Pipeline.afterTail₀ cfgs (dats m) 0 (V0 m) [hostOps1] c main_v0
      = Cert.Spec.out (m ((c : Thread nD τ).loc main_arg0)) (m ((c : Thread nD τ).loc main_arg1))
          (m ((c : Thread nD τ).loc main_arg2)) (m ((c : Thread nD τ).loc main_arg3)) (m ((c : Thread nD τ).loc main_arg4)) := by
  unfold Pipeline.afterTail₀
  show StableHlo.after hostOps1 _ (Proc.devRef .tc main_v0) = _
  after_results
  funext i
  show shapeCast S1x10000x128 (Pipeline.withArrays spec0 c (V0 m c) (fun w => (dats m 0 c).arrAt w cfg0.N)
    (Proc.devRef .tc (Pipeline.arrRef spec0 5))) shapeCasts_S10000x128_S1x10000x128 i = _
  rw [Pipeline.withArrays_arr spec0 winFacts0.arr_inj c _ _ 5, final5 m c]
  obtain ⟨a, n, j, rfl⟩ : ∃ (a : Fin 1) (n : Fin 10000) (j : Fin 128), i = ix3 a n j := ⟨i 0, i 1, i 2, eq_ix3 i⟩
  rw [shapeCast_apply (G2 m c) shapeCasts_S10000x128_S1x10000x128 (ix3 a n j) (ix2 n j) (by
    rw [Shape.rowMajor_val_three, Shape.rowMajor_val_two]
    have ha : a.val < 1 := a.isLt
    show n.val * 128 + j.val = (a.val * 10000 + n.val) * 128 + j.val
    omega)]
  rfl

end Cert.KernelIdeal.Hand

end
-- ==== Proof.RefValue.lean ====
/-
  The reference program's result, at the ideal instance, is the specification's function of the five arguments.

  Stage by stage: the contraction of `x`'s last axis with `W`'s last axis plus the bias broadcast over batch and
  node is the linear layer; the contraction of `adj`'s columns with it (reshaped to [10000, 128]) is the aggregation;
  the comparison against zero, the product with the broadcast slope and the selection are the rectifier.
-/
import proofs.«120041_g38628935860365_cont_8to1_b_742_12_alg».proof.Defs
import proofs.«120041_g38628935860365_cont_8to1_b_742_12_alg».proof.Proof.Gen.ReferenceIdeal.Run
import proofs.«120041_g38628935860365_cont_8to1_b_742_12_alg».proof.Proof.Gen.ReferenceIdeal.Read
import proofs.«120041_g38628935860365_cont_8to1_b_742_12_alg».proof.Proof.Spec
import Idealize.ShloMosaic.Lib.ValueIdx

set_option maxRecDepth 16384

noncomputable section

namespace Cert.ReferenceIdeal.Hand

open Cert.ReferenceIdeal Cert.ReferenceIdeal.Gen Cert.ReferenceIdeal.Read
open Idealize.ShloMosaic Idealize.ShloMosaic.ValueIdx

/-! ## The composed index maps, on indices given by coordinates -/

/-- The first contraction reads `x` at `[0, n, f]` … -/
theorem lidx_v0_ix (n : Fin 10000) (j f : Fin 128) :
    lidx_main_v0 (ix3 (0 : Fin 1) n j) f = ix3 (0 : Fin 1) n f :=
  funext fun a => Fin.ext (by match a with | ⟨0, _⟩ => rfl | ⟨1, _⟩ => rfl | ⟨2, _⟩ => rfl)

/-- … and `W` at `[j, f]`. -/
theorem ridx_v0_ix (n : Fin 10000) (j f : Fin 128) :
    ridx_main_v0 (ix3 (0 : Fin 1) n j) f = ix2 j f :=
  funext fun a => Fin.ext (by match a with | ⟨0, _⟩ => rfl | ⟨1, _⟩ => rfl)

/-- The bias, broadcast twice, is read at `[j]`. -/
theorem idx_v1_v2_ix (n : Fin 10000) (j : Fin 128) :
    idx_main_v1 (idx_main_v2 (ix3 (0 : Fin 1) n j)) = ix1 j :=
  funext fun a => Fin.ext (by match a with | ⟨0, _⟩ => rfl)

/-- The reshape `[1, 10000, 128] → [10000, 128]` reads `[k, j]` at `[0, k, j]`: the row-major position
    `k · 128 + j` with `j < 128` has quotient `k` (below `10000`) and remainder `j`. -/
theorem idx_v4_ix (k : Fin 10000) (j : Fin 128) :
    idx_main_v4 (ix2 k j) = ix3 (0 : Fin 1) k j :=
  funext fun a => Fin.ext (by
    have hk : k.val < 10000 := k.isLt
    have hj : j.val < 128 := j.isLt
    match a with
    | ⟨0, _⟩ => rfl
    | ⟨1, _⟩ => show (k.val * 128 + j.val) / 128 % 10000 = k.val; omega
    | ⟨2, _⟩ => show (k.val * 128 + j.val) % 128 = j.val; omega)

/-- The second contraction reads `adj` at `[n, k]` … -/
theorem lidx_v5_ix (n : Fin 10000) (j : Fin 128) (k : Fin 10000) :
    lidx_main_v5 (ix2 n j) k = ix2 n k :=
  funext fun a => Fin.ext (by match a with | ⟨0, _⟩ => rfl | ⟨1, _⟩ => rfl)

/-- … and the reshaped linear layer at `[k, j]`. -/
theorem ridx_v5_ix (n : Fin 10000) (j : Fin 128) (k : Fin 10000) :
    ridx_main_v5 (ix2 n j) k = ix2 k j :=
  funext fun a => Fin.ext (by match a with | ⟨0, _⟩ => rfl | ⟨1, _⟩ => rfl)

/-- The broadcast back to `[1, 10000, 128]` reads `[a, n, j]` at `[n, j]`. -/
theorem idx_v6_ix (a : Fin 1) (n : Fin 10000) (j : Fin 128) :
    idx_main_v6 (ix3 a n j) = ix2 n j :=
  funext fun b => Fin.ext (by match b with | ⟨0, _⟩ => rfl | ⟨1, _⟩ => rfl)

/-- The slope, broadcast twice, is read at `[0]`. -/
theorem idx_v9_v10_ix (i : S1x10000x128.Idx) :
    idx_main_v9 (idx_main_v10 i) = ix1 (0 : Fin 1) :=
  funext fun a => Fin.ext (by match a with | ⟨0, _⟩ => rfl)

/-! ## The stages -/

/-- The sum of the first contraction and the broadcast bias is the linear layer. -/
theorem v3_at (x0 : S1x10000x128.Idx → EReal) (x2 : S128x128.Idx → EReal) (x3 : S128.Idx → EReal)
    (n : Fin 10000) (j : Fin 128) :
    val_main_v3 (F := Ideal) x0 x2 x3 (ix3 (0 : Fin 1) n j) = Cert.Spec.lin x0 x2 x3 n j := by
  rw [val_main_v3_apply, val_main_v0_apply, val_main_v2_apply, val_main_v1_apply, idx_v1_v2_ix, Ideal.addf_def]
  unfold Cert.Spec.lin
  congr 1
  exact Finset.sum_congr rfl fun f _ => by rw [lidx_v0_ix, ridx_v0_ix]

/-- The reshaped stage at `[k, j]` is the linear layer at node `k` and feature `j`. -/
theorem v4_at (x0 : S1x10000x128.Idx → EReal) (x2 : S128x128.Idx → EReal) (x3 : S128.Idx → EReal)
    (k : Fin 10000) (j : Fin 128) :
    val_main_v4 (F := Ideal) x0 x2 x3 (ix2 k j) = Cert.Spec.lin x0 x2 x3 k j := by
  rw [val_main_v4_apply, idx_v4_ix, v3_at]

/-- The second contraction is the aggregation. -/
theorem v5_at (x0 : S1x10000x128.Idx → EReal) (x1 : S10000x10000.Idx → EReal) (x2 : S128x128.Idx → EReal)
    (x3 : S128.Idx → EReal) (n : Fin 10000) (j : Fin 128) :
    val_main_v5 (F := Ideal) x0 x1 x2 x3 (ix2 n j) = Cert.Spec.agg x0 x1 x2 x3 n j := by
  rw [val_main_v5_apply]
  unfold Cert.Spec.agg
  exact Finset.sum_congr rfl fun k _ => by rw [lidx_v5_ix, ridx_v5_ix, v4_at]

/-- Broadcast over the batch axis, it is still the aggregation. -/
theorem v6_at (x0 : S1x10000x128.Idx → EReal) (x1 : S10000x10000.Idx → EReal) (x2 : S128x128.Idx → EReal)
    (x3 : S128.Idx → EReal) (a : Fin 1) (n : Fin 10000) (j : Fin 128) :
    val_main_v6 (F := Ideal) x0 x1 x2 x3 (ix3 a n j) = Cert.Spec.agg x0 x1 x2 x3 n j := by
  rw [val_main_v6_apply, idx_v6_ix, v5_at]

/-- The reference's last stage is the specification. -/
theorem ref_eq (x0 : S1x10000x128.Idx → EReal) (x1 : S10000x10000.Idx → EReal) (x2 : S128x128.Idx → EReal)
    (x3 : S128.Idx → EReal) (x4 : S1.Idx → EReal) :
    val_main_v12 (F := Ideal) x0 x1 x2 x3 x4 = Cert.Spec.out x0 x1 x2 x3 x4 := by
  funext i
  obtain ⟨a, n, j, rfl⟩ : ∃ (a : Fin 1) (n : Fin 10000) (j : Fin 128), i = ix3 a n j := ⟨i 0, i 1, i 2, eq_ix3 i⟩
  rw [val_main_v12_apply, val_main_v8_apply, val_main_v11_apply, v6_at, val_main_v7_apply, val_main_cst_apply,
    val_main_v10_apply, val_main_v9_apply, idx_v9_v10_ix]
  rfl

end Cert.ReferenceIdeal.Hand

end
-- ==== Proof.lean ====
/-
  The certificate: a graph-convolution layer, `out = PReLU(adj · (x · Wᵀ + b))`, as one pipelined kernel over sixteen
  row blocks of the adjacency against its plain reference.

  The kernel computes the linear layer once, at the first grid point, into a scratch buffer that every later point
  reads; each point multiplies its 640 rows of the adjacency by that scratch and applies the rectifier. The last
  block overhangs the array by 240 rows; what the overhanging rows of the buffer hold reaches only the overhanging rows
  of the output block, which the write-back cuts off. Over the extended reals both programs are the same sums in
  the same order, so no algebraic law and no finiteness is used.

  The three frames: the printed kernel's from relational proof data (nothing is named of what it computes); the
  idealized kernel's from exact proof data, which also gives its result; the reference's from its run. The ideal
  pass rewrote nothing, so the preservation conjunct is trivial.
-/
import proofs.«120041_g38628935860365_cont_8to1_b_742_12_alg».proof.Defs
import proofs.«120041_g38628935860365_cont_8to1_b_742_12_alg».proof.Proof.Gen.Kernel
import proofs.«120041_g38628935860365_cont_8to1_b_742_12_alg».proof.Proof.Gen.KernelIdeal
import proofs.«120041_g38628935860365_cont_8to1_b_742_12_alg».proof.Proof.Gen.ReferenceIdeal
import proofs.«120041_g38628935860365_cont_8to1_b_742_12_alg».proof.Proof.Gen.Pre_finite_inputs
import proofs.«120041_g38628935860365_cont_8to1_b_742_12_alg».proof.Proof.Gen.ReferenceIdeal.Run
import proofs.«120041_g38628935860365_cont_8to1_b_742_12_alg».proof.Proof.Gen.ReferenceIdeal.Read
import proofs.«120041_g38628935860365_cont_8to1_b_742_12_alg».proof.Proof.BitsFrame
import proofs.«120041_g38628935860365_cont_8to1_b_742_12_alg».proof.Proof.IdealRun
import proofs.«120041_g38628935860365_cont_8to1_b_742_12_alg».proof.Proof.KernelValue
import proofs.«120041_g38628935860365_cont_8to1_b_742_12_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

section KernelRun

open Cert.KernelIdeal Cert.KernelIdeal.Gen Cert.KernelIdeal.Hand

/-- The idealized kernel's run with its result named: the specification of the arguments; the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0)
          = Cert.Spec.out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).1 4).trans (((dats m 0 c).arrAt_in 4 rfl _).trans (V_main_arg1 m c)),
      ((h c).1 1).trans (((dats m 0 c).arrAt_in 1 rfl _).trans (V_main_arg2 m c)),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end KernelRun

/-- Both idealized programs end at the specification's function of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun r h c => ⟨?_, (h c).2⟩)
    (Cert.ReferenceIdeal.Value.run (F := Ideal) m' ρ')
  refine (h c).1.trans ((Cert.ReferenceIdeal.Read.val_main_v12_eq (F := Ideal) _ _ _ _ _).trans
    ((Cert.ReferenceIdeal.Hand.ref_eq _ _ _ _ _).trans ?_))
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    Cert.Kernel.Hand.frame_p, Cert.KernelIdeal.Hand.frame_pi, frame_ri, trivial, algebraic⟩

end Cert.Proof

end
